-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048 .f32) (main_arg5 : FVec F S512x2048 .f32) (main_arg6 : FVec F S512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16384x512 .f32) (main_arg1 : FVec F S2048x512 .f32) (main_arg2 : FVec F S2048 .f32) (main_arg3 : FVec F S2048x2048 .f32) (main_arg4 : FVec F S2048 .f32) (main_arg5 : FVec F S512x2048 .f32) (main_arg6 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩
abbrev S1x1 : Shape := ⟨2, ![1, 1]⟩
abbrev S1x2048 : Shape := ⟨2, ![1, 2048]⟩
abbrev S16384x2048 : Shape := ⟨2, ![16384, 2048]⟩
abbrev S1024x512 : Shape := ⟨2, ![1024, 512]⟩
abbrev S512x512 : Shape := ⟨2, ![512, 512]⟩
abbrev S1x512 : Shape := ⟨2, ![1, 512]⟩
abbrev S256x2048 : Shape := ⟨2, ![256, 2048]⟩
abbrev S1x256 : Shape := ⟨2, ![1, 256]⟩
abbrev S256x256 : Shape := ⟨2, ![256, 256]⟩
abbrev S256x512 : Shape := ⟨2, ![256, 512]⟩

abbrev nBuf : Space → Nat
  | .hbm => 61
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S16384x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S2048x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S2048x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S512x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1x1, .f32⟩
  | .hbm, ⟨59, _⟩ => ⟨S1x512, .f32⟩
  | .hbm, ⟨60, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1x1, .f32⟩
  | .local _ .vmem, ⟨8, _⟩ => ⟨S1024x512, .f32⟩
  | .local _ .vmem, ⟨9, _⟩ => ⟨S1024x512, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x256, .f32⟩
  | .local _ .vmem, ⟨15, _⟩ => ⟨S1x256, .f32⟩
  | .local _ .vmem, ⟨16, _⟩ => ⟨S1x1, .f32⟩
  | .local _ .vmem, ⟨17, _⟩ => ⟨S1x1, .f32⟩
  | .local _ .vmem, ⟨18, _⟩ => ⟨S256x256, .f32⟩
  | .local _ .vmem, ⟨19, _⟩ => ⟨S256x256, .f32⟩
  | .local _ .vmem, ⟨20, _⟩ => ⟨S256x2048, .f32⟩
  | .local _ .vmem, ⟨21, _⟩ => ⟨S256x2048, .f32⟩
  | .local _ .vmem, ⟨22, _⟩ => ⟨S512x2048, .f32⟩
  | .local _ .vmem, ⟨23, _⟩ => ⟨S1x512, .f32⟩
  | .local _ .vmem, ⟨24, _⟩ => ⟨S1x1, .f32⟩
  | .local _ .vmem, ⟨25, _⟩ => ⟨S1x1, .f32⟩
  | .local _ .vmem, ⟨26, _⟩ => ⟨S256x512, .f32⟩
  | .local _ .vmem, ⟨27, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_cst_10 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_11 : Ref sig .tc := ⟨.hbm, 44, rfl⟩
abbrev main_v25 : Ref sig .tc := ⟨.hbm, 45, rfl⟩
abbrev main_cst_12 : Ref sig .tc := ⟨.hbm, 46, rfl⟩
abbrev main_v26 : Ref sig .tc := ⟨.hbm, 47, rfl⟩
abbrev main_cst_13 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_14 : Ref sig .tc := ⟨.hbm, 52, rfl⟩
abbrev main_v30 : Ref sig .tc := ⟨.hbm, 53, rfl⟩
abbrev main_cst_15 : Ref sig .tc := ⟨.hbm, 54, rfl⟩
abbrev main_v31 : Ref sig .tc := ⟨.hbm, 55, rfl⟩
abbrev main_cst_16 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![64, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![64, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  reducesTo_S16384x512_S_d0_1 : S16384x512.ReducesTo [0, 1] S_
  h_S_ : 0 < S_.numel
  shapeCasts_S_S1x1 : S_.ShapeCasts S1x1
  reducesTo_S2048x512_S_d0_1 : S2048x512.ReducesTo [0, 1] S_
  shapeCasts_S2048_S1x2048 : S2048.ShapeCasts S1x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reducesTo_S16384x2048_S_d0_1 : S16384x2048.ReducesTo [0, 1] S_
  reducesTo_S2048x2048_S_d0_1 : S2048x2048.ReducesTo [0, 1] S_
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  reducesTo_S512x2048_S_d0_1 : S512x2048.ReducesTo [0, 1] S_
  shapeCasts_S512_S1x512 : S512.ShapeCasts S1x512
  inb_S512x2048_S512x2048_0_0 : ∀ a, (![0, 0] : Fin 2 → Nat) a + S512x2048.size a ≤ S512x2048.size a
  h_S512x2048 : 0 < S512x2048.numel
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S1024x512_S512x512_S1024x512_1_1_0_0_n_n_wf : DotDims.WF S1024x512 S512x512 S1024x512 [1] [1] [0] [0] [] []
  dot_S256x2048_S256x2048_S256x256_1_1_0_0_n_n_wf : DotDims.WF S256x2048 S256x2048 S256x256 [1] [1] [0] [0] [] []
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x2048.size a
  hwx0_5 : ∀ i : grid0.Coords, EltTy.bits .f32 = 32 ∨ (Rect.block (s := S16384x2048) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .f32 = 32 ∨ (Rect.block (s := S2048x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S16384x2048.size a
  hwx1_5 : ∀ i : grid1.Coords, EltTy.bits .f32 = 32 ∨ (Rect.block (s := S16384x2048) S256x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S16384x2048.size a
  hwx2_0 : ∀ i : grid2.Coords, EltTy.bits .f32 = 32 ∨ (Rect.block (s := S16384x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .f32 = 32 ∨ (Rect.block (s := S512x2048) S512x2048.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S16384x512.size a
  hwx2_5 : ∀ i : grid2.Coords, EltTy.bits .f32 = 32 ∨ (Rect.block (s := S16384x512) S256x512.size (cc2_transform_5 i) (hinb2_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S256x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩
abbrev S16384x2048 : Shape := ⟨2, ![16384, 2048]⟩
abbrev S1x2048 : Shape := ⟨2, ![1, 2048]⟩
abbrev S1x512 : Shape := ⟨2, ![1, 512]⟩

abbrev nBuf : Space → Nat
  | .hbm => 151
  | .vmem => 0
  | .smem => 0
  | _ => 0

abbrev hbmTy0_0 (i : Nat) : BufTy := match i % 128 with
  | 0 => ⟨S16384x512, .f32⟩
  | 1 => ⟨S2048x512, .f32⟩
  | 2 => ⟨S2048, .f32⟩
  | 3 => ⟨S2048x2048, .f32⟩
  | 4 => ⟨S2048, .f32⟩
  | 5 => ⟨S512x2048, .f32⟩
  | 6 => ⟨S512, .f32⟩
  | 7 => ⟨S16384x512, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384x512, .f32⟩
  | 15 => ⟨S16384x512, .f32⟩
  | 16 => ⟨S16384x512, .f32⟩
  | 17 => ⟨S_, .f32⟩
  | 18 => ⟨S_, .f32⟩
  | 19 => ⟨S_, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S2048x512, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2048x512, .f32⟩
  | 37 => ⟨S2048x512, .f32⟩
  | 38 => ⟨S2048x512, .f32⟩
  | 39 => ⟨S_, .f32⟩
  | 40 => ⟨S_, .f32⟩
  | 41 => ⟨S_, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S16384x2048, .f32⟩
  | 52 => ⟨S1x2048, .f32⟩
  | 53 => ⟨S16384x2048, .f32⟩
  | 54 => ⟨S16384x2048, .f32⟩
  | 55 => ⟨S16384x2048, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S16384x2048, .f32⟩
  | 63 => ⟨S16384x2048, .f32⟩
  | 64 => ⟨S16384x2048, .f32⟩
  | 65 => ⟨S_, .f32⟩
  | 66 => ⟨S_, .f32⟩
  | 67 => ⟨S_, .f32⟩
  | 68 => ⟨S16384x2048, .f32⟩
  | 69 => ⟨S16384x2048, .f32⟩
  | 70 => ⟨S_, .f32⟩
  | 71 => ⟨S16384x2048, .f32⟩
  | 72 => ⟨S16384x2048, .f32⟩
  | 73 => ⟨S16384x2048, .f32⟩
  | 74 => ⟨S16384x2048, .f32⟩
  | 75 => ⟨S16384x2048, .f32⟩
  | 76 => ⟨S16384x2048, .f32⟩
  | 77 => ⟨S2048x2048, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S2048x2048, .f32⟩
  | 85 => ⟨S2048x2048, .f32⟩
  | 86 => ⟨S2048x2048, .f32⟩
  | 87 => ⟨S_, .f32⟩
  | 88 => ⟨S_, .f32⟩
  | 89 => ⟨S_, .f32⟩
  | 90 => ⟨S2048x2048, .f32⟩
  | 91 => ⟨S2048x2048, .f32⟩
  | 92 => ⟨S_, .f32⟩
  | 93 => ⟨S2048x2048, .f32⟩
  | 94 => ⟨S2048x2048, .f32⟩
  | 95 => ⟨S2048x2048, .f32⟩
  | 96 => ⟨S2048x2048, .f32⟩
  | 97 => ⟨S2048x2048, .f32⟩
  | 98 => ⟨S2048x2048, .f32⟩
  | 99 => ⟨S16384x2048, .f32⟩
  | 100 => ⟨S1x2048, .f32⟩
  | 101 => ⟨S16384x2048, .f32⟩
  | 102 => ⟨S16384x2048, .f32⟩
  | 103 => ⟨S16384x2048, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S16384x2048, .f32⟩
  | 111 => ⟨S16384x2048, .f32⟩
  | 112 => ⟨S16384x2048, .f32⟩
  | 113 => ⟨S_, .f32⟩
  | 114 => ⟨S_, .f32⟩
  | 115 => ⟨S_, .f32⟩
  | 116 => ⟨S16384x2048, .f32⟩
  | 117 => ⟨S16384x2048, .f32⟩
  | 118 => ⟨S_, .f32⟩
  | 119 => ⟨S16384x2048, .f32⟩
  | 120 => ⟨S16384x2048, .f32⟩
  | 121 => ⟨S16384x2048, .f32⟩
  | 122 => ⟨S16384x2048, .f32⟩
  | 123 => ⟨S16384x2048, .f32⟩
  | 124 => ⟨S16384x2048, .f32⟩
  | 125 => ⟨S512x2048, .f32⟩
  | 126 => ⟨S_, .f32⟩
  | 127 => ⟨S_, .f32⟩
  | _ => ⟨S16384x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S512x2048, .f32⟩
  | 5 => ⟨S512x2048, .f32⟩
  | 6 => ⟨S512x2048, .f32⟩
  | 7 => ⟨S_, .f32⟩
  | 8 => ⟨S_, .f32⟩
  | 9 => ⟨S_, .f32⟩
  | 10 => ⟨S512x2048, .f32⟩
  | 11 => ⟨S512x2048, .f32⟩
  | 12 => ⟨S_, .f32⟩
  | 13 => ⟨S512x2048, .f32⟩
  | 14 => ⟨S512x2048, .f32⟩
  | 15 => ⟨S512x2048, .f32⟩
  | 16 => ⟨S512x2048, .f32⟩
  | 17 => ⟨S512x2048, .f32⟩
  | 18 => ⟨S512x2048, .f32⟩
  | 19 => ⟨S16384x512, .f32⟩
  | 20 => ⟨S1x512, .f32⟩
  | 21 => ⟨S16384x512, .f32⟩
  | 22 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_cst_13 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_14 : Ref sig .tc := ⟨.hbm, 78, rfl⟩
abbrev main_v41 : Ref sig .tc := ⟨.hbm, 79, rfl⟩
abbrev main_cst_15 : Ref sig .tc := ⟨.hbm, 80, rfl⟩
abbrev main_v42 : Ref sig .tc := ⟨.hbm, 81, rfl⟩
abbrev main_cst_16 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_17 : Ref sig .tc := ⟨.hbm, 87, rfl⟩
abbrev main_cst_18 : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_19 : Ref sig .tc := ⟨.hbm, 104, rfl⟩
abbrev main_v57 : Ref sig .tc := ⟨.hbm, 105, rfl⟩
abbrev main_cst_20 : Ref sig .tc := ⟨.hbm, 106, rfl⟩
abbrev main_v58 : Ref sig .tc := ⟨.hbm, 107, rfl⟩
abbrev main_cst_21 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_22 : Ref sig .tc := ⟨.hbm, 113, rfl⟩
abbrev main_cst_23 : Ref sig .tc := ⟨.hbm, 114, rfl⟩
abbrev main_call9_v0 : Ref sig .tc := ⟨.hbm, 115, rfl⟩
abbrev main_call9_v1 : Ref sig .tc := ⟨.hbm, 116, rfl⟩
abbrev main_call9_v2 : Ref sig .tc := ⟨.hbm, 117, rfl⟩
abbrev main_call9_v3 : Ref sig .tc := ⟨.hbm, 118, rfl⟩
abbrev main_call9_v4 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_24 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_cst_26 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_27 : Ref sig .tc := ⟨.hbm, 135, rfl⟩
abbrev main_cst_28 : Ref sig .tc := ⟨.hbm, 136, rfl⟩
abbrev main_call11_v0 : Ref sig .tc := ⟨.hbm, 137, rfl⟩
abbrev main_call11_v1 : Ref sig .tc := ⟨.hbm, 138, rfl⟩
abbrev main_call11_v2 : Ref sig .tc := ⟨.hbm, 139, rfl⟩
abbrev main_call11_v3 : Ref sig .tc := ⟨.hbm, 140, rfl⟩
abbrev main_call11_v4 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩

abbrev nD : Nat := 1
abbrev τ : Topo := Topo.v7x

variable {F : FTy → Type} [FloatOps F]

class Facts₀ : Prop where
  reducesTo_S16384x512_S_d0_1 : S16384x512.ReducesTo [0, 1] S_
  h_S_ : 0 < S_.numel
  bcast_S_S16384x512 : S_.BroadcastsInDim S16384x512 (![] : Fin 0 → Fin S16384x512.rank)
  reducesTo_S2048x512_S_d0_1 : S2048x512.ReducesTo [0, 1] S_
  bcast_S_S2048x512 : S_.BroadcastsInDim S2048x512 (![] : Fin 0 → Fin S2048x512.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S_d0_1 : S16384x2048.ReducesTo [0, 1] S_
  bcast_S_S16384x2048 : S_.BroadcastsInDim S16384x2048 (![] : Fin 0 → Fin S16384x2048.rank)
  reducesTo_S2048x2048_S_d0_1 : S2048x2048.ReducesTo [0, 1] S_
  bcast_S_S2048x2048 : S_.BroadcastsInDim S2048x2048 (![] : Fin 0 → Fin S2048x2048.rank)
  reducesTo_S512x2048_S_d0_1 : S512x2048.ReducesTo [0, 1] S_
  bcast_S_S512x2048 : S_.BroadcastsInDim S512x2048 (![] : Fin 0 → Fin S512x2048.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S2048x512_S16384x2048_1_1_0_0_n_n_wf : DotDims.WF S16384x512 S2048x512 S16384x2048 [1] [1] [0] [0] [] []
  dot_S16384x2048_S2048x2048_S16384x2048_1_1_0_0_n_n_wf : DotDims.WF S16384x2048 S2048x2048 S16384x2048 [1] [1] [0] [0] [] []
  dot_S16384x2048_S512x2048_S16384x512_1_1_0_0_n_n_wf : DotDims.WF S16384x2048 S512x2048 S16384x512 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf
def dot_S16384x2048_S512x2048_S16384x512_1_1_0_0_n_n : DotDims S16384x2048 S512x2048 S16384x512 where
  lhsContracting := [1]
  rhsContracting := [1]
  lhsNonContracting := [0]
  rhsNonContracting := [0]
  lhsBatch := []
  rhsBatch := []
  wf := dot_S16384x2048_S512x2048_S16384x512_1_1_0_0_n_n_wf

class Facts : Prop extends Facts₀ where

variable [Facts]
-- ==== Proof.QuantSpec.lean ====
/-
  The mathematics of a "quantise the activations, quantise the weights, multiply, add the bias" layer over the
  extended reals, and of three such layers in a row.

  A tensor t is quantised with one scale for the whole tensor, s(t) = max (max |t| / 127, eps): each entry becomes
  clip (round-half-even (t / s), -128, 127) * s.  One layer maps x : [M, K], W : [N, K], b : [N] to
  y (p, q) = sum over k of Q(x)(p, k) * Q(W)(q, k) + b (q).

  Two spellings of the quantised entry occur: the entry Q itself, and t + (Q - t).  On the extended reals they agree
  exactly when t and Q are real numbers (t + (Q - t) is bottom when t is an infinity).  Q is always a real number when the
  scale is: the clip leaves a value between -128 and 127.  The scale is a real number when every entry of the tensor
  is: then max |t| is a real number or bottom (never top), dividing by 127 keeps it below top, and the maximum with eps
  is at least eps.  So real inputs give a real first layer, and by the same argument a real second and third.
-/
import Idealize.ShloMosaic.PureOps.Ideal
import Idealize.ShloMosaic.PureOps.Ideal.Laws
import Idealize.ShloMosaic.PureOps.Reduce
import Idealize.ShloMosaic.Lib.ValueIdx

noncomputable section

namespace QuantLin

open Idealize.ShloMosaic Idealize.ShloMosaic.ValueIdx

/-- An extended real that is a real number. -/
def IsFin (x : EReal) : Prop := x ≠ ⊤ ∧ x ≠ ⊥

/-- The shape of a rank-0 tensor. -/
abbrev S0 : Shape := ⟨0, ![]⟩

/-- One entry quantised at the scale s: clip (round-half-even (x / s), -128, 127) * s. -/
def qe (s x : EReal) : EReal :=
  min (Ideal.ofBits .f32 0x42FE0000#32) (max (Ideal.ofBits .f32 0xC3000000#32) (Ideal.liftRound Ideal.roundHalfEven (Ideal.div x s))) * s

/-- The tensor's scale as a rank-0 tensor: max (max |t| / 127, eps), the inner maximum a reduction from -inf. -/
def scaleArr {S : Shape} {axes : List (Fin S.rank)} (hred : S.ReducesTo axes S0) (h0 : 0 < S0.numel) (t : FVec Ideal S .f32) :
    FVec Ideal S0 .f32 :=
  maximumf (Host.divf (Host.reduce FloatOps.maximumf (Host.absf t) (constant S0 .f32 0xFF800000#32) hred h0)
    (constant S0 .f32 0x42FE0000#32)) (constant S0 .f32 0x322BCC77#32)

/-- The tensor's scale, a number. -/
def sc {S : Shape} {axes : List (Fin S.rank)} (hred : S.ReducesTo axes S0) (h0 : 0 < S0.numel) (t : FVec Ideal S .f32) : EReal :=
  scaleArr hred h0 t ix0

/-- One layer at given scales: y (p, q) = sum over k of Q(x)(p, k) * Q(W)(q, k) + b (0, q), the bias a [1, N] row. -/
def lin {M K N : Nat} (sx sw : EReal) (x : (⟨2, ![M, K]⟩ : Shape).Idx → EReal) (W : (⟨2, ![N, K]⟩ : Shape).Idx → EReal)
    (b : (⟨2, ![1, N]⟩ : Shape).Idx → EReal) : (⟨2, ![M, N]⟩ : Shape).Idx → EReal :=
  fun i => (∑ k : Fin K, qe sx (x (ix2 (n0 := M) (i 0) k)) * qe sw (W (ix2 (n0 := N) (i 1) k))) + b (ix2 (n0 := 1) (n1 := N) 0 (i 1))

/-- A bias vector as the [1, N] row the layer reads. -/
def row {N : Nat} (b : (⟨1, ![N]⟩ : Shape).Idx → EReal) : (⟨2, ![1, N]⟩ : Shape).Idx → EReal := fun j => b (ix1 (n := N) (j 1))

/-- Three layers in a row over the program's sizes: x : [16384, 512], W1 : [2048, 512], W2 : [2048, 2048], W3 : [512, 2048];
    each layer's activation scale is the scale of its own input tensor. -/
def G3 (x : (⟨2, ![16384, 512]⟩ : Shape).Idx → EReal) (W1 : (⟨2, ![2048, 512]⟩ : Shape).Idx → EReal) (b1 : (⟨1, ![2048]⟩ : Shape).Idx → EReal)
    (W2 : (⟨2, ![2048, 2048]⟩ : Shape).Idx → EReal) (b2 : (⟨1, ![2048]⟩ : Shape).Idx → EReal)
    (W3 : (⟨2, ![512, 2048]⟩ : Shape).Idx → EReal) (b3 : (⟨1, ![512]⟩ : Shape).Idx → EReal) : (⟨2, ![16384, 512]⟩ : Shape).Idx → EReal :=
  let y1 : (⟨2, ![16384, 2048]⟩ : Shape).Idx → EReal :=
    lin (sc (S := ⟨2, ![16384, 512]⟩) (axes := [0, 1]) (by decide) (by decide) x) (sc (S := ⟨2, ![2048, 512]⟩) (axes := [0, 1]) (by decide) (by decide) W1) x W1 (row b1)
  let y2 : (⟨2, ![16384, 2048]⟩ : Shape).Idx → EReal :=
    lin (sc (S := ⟨2, ![16384, 2048]⟩) (axes := [0, 1]) (by decide) (by decide) y1) (sc (S := ⟨2, ![2048, 2048]⟩) (axes := [0, 1]) (by decide) (by decide) W2) y1 W2 (row b2)
  lin (sc (S := ⟨2, ![16384, 2048]⟩) (axes := [0, 1]) (by decide) (by decide) y2) (sc (S := ⟨2, ![512, 2048]⟩) (axes := [0, 1]) (by decide) (by decide) W3) y2 W3 (row b3)

/-! ## Real numbers in, real numbers out -/

theorem isFin_coe (r : ℝ) : IsFin (r : EReal) := ⟨EReal.coe_ne_top r, EReal.coe_ne_bot r⟩

theorem IsFin.exists_coe {x : EReal} (h : IsFin x) : ∃ r : ℝ, x = (r : EReal) := by
  induction x using EReal.rec with
  | bot => exact absurd rfl h.2
  | top => exact absurd rfl h.1
  | coe r => exact ⟨r, rfl⟩

/-- A real t and a real q: t + (q - t) = q. -/
theorem add_sub_cancel_fin {t q : EReal} (ht : IsFin t) (hq : IsFin q) : t + (q - t) = q := by
  obtain ⟨a, rfl⟩ := ht.exists_coe
  obtain ⟨b, rfl⟩ := hq.exists_coe
  rw [← EReal.coe_sub, ← EReal.coe_add]
  congr 1
  ring

/-- The literal word 0x42FE0000 is 127. -/
private theorem c127_eq : Ideal.ofBits .f32 0x42FE0000#32 = ((127 : ℝ) : EReal) := by
  simp [Ideal.ofBits, Ideal.ieee]
  rw [← EReal.coe_mul]
  congr 1
  norm_num

/-- The literal word 0xC3000000 is -128. -/
private theorem cm128_eq : Ideal.ofBits .f32 0xC3000000#32 = ((-128 : ℝ) : EReal) := by
  simp [Ideal.ofBits, Ideal.ieee]
  rw [← EReal.coe_mul]
  congr 1
  norm_num

/-- The literal word 0x322BCC77 (the eps) is a real number. -/
private theorem ceps_fin : IsFin (Ideal.ofBits .f32 0x322BCC77#32) := by
  simp [Ideal.ofBits, Ideal.ieee]
  rw [← EReal.coe_mul]
  exact isFin_coe _

/-- The literal word 0xFF800000 is bottom. -/
private theorem cninf_eq : Ideal.ofBits .f32 0xFF800000#32 = (⊥ : EReal) := by
  simp [Ideal.ofBits, Ideal.ieee]

/-- The product of two real numbers is a real number. -/
private theorem IsFin.mul {a b : EReal} (ha : IsFin a) (hb : IsFin b) : IsFin (a * b) := by
  obtain ⟨r, rfl⟩ := ha.exists_coe
  obtain ⟨s, rfl⟩ := hb.exists_coe
  rw [← EReal.coe_mul]
  exact isFin_coe _

/-- The sum of two real numbers is a real number. -/
private theorem IsFin.add {a b : EReal} (ha : IsFin a) (hb : IsFin b) : IsFin (a + b) := by
  obtain ⟨r, rfl⟩ := ha.exists_coe
  obtain ⟨s, rfl⟩ := hb.exists_coe
  rw [← EReal.coe_add]
  exact isFin_coe _

/-- A clip between two real bounds is a real number, whatever is clipped: min a (max b y) is at most a, and both a
    and max b y are above bottom. -/
private theorem clip_fin {a b : EReal} (ha : IsFin a) (hb : IsFin b) (y : EReal) : IsFin (min a (max b y)) := by
  refine ⟨ne_top_of_le_ne_top ha.1 (min_le_left _ _), ?_⟩
  have h1 : ⊥ < a := bot_lt_iff_ne_bot.mpr ha.2
  have h2 : ⊥ < max b y := lt_max_of_lt_left (bot_lt_iff_ne_bot.mpr hb.2)
  exact (lt_min h1 h2).ne'

/-- A quantised entry is a real number whenever the scale is. -/
theorem qe_fin {s : EReal} (hs : IsFin s) (x : EReal) : IsFin (qe s x) := by
  unfold qe
  refine IsFin.mul (clip_fin ?_ ?_ _) hs
  · rw [c127_eq]; exact isFin_coe _
  · rw [cm128_eq]; exact isFin_coe _

/-- A finite sum of real numbers is a real number. -/
theorem sum_fin {ι : Type} (S : Finset ι) (f : ι → EReal) (h : ∀ i ∈ S, IsFin (f i)) : IsFin (∑ i ∈ S, f i) := by
  refine Finset.sum_induction f IsFin (fun a b ha hb => ha.add hb) ?_ h
  rw [← EReal.coe_zero]
  exact isFin_coe 0

/-- A left fold of max stays below top when its start and every entry do. -/
private theorem foldl_max_ne_top {ι : Type} (g : ι → EReal) (hg : ∀ i, g i ≠ ⊤) :
    ∀ (L : List ι) (a : EReal), a ≠ ⊤ → L.foldl (fun r i => max r (g i)) a ≠ ⊤
  | [], a, ha => ha
  | i :: L, a, ha => by
      rw [List.foldl_cons]
      refine foldl_max_ne_top g hg L _ ?_
      rcases max_choice a (g i) with h | h
      · rw [h]; exact ha
      · rw [h]; exact hg i

/-- The absolute value max (r, -r) of a real number is below top. -/
private theorem abs_ne_top {x : EReal} (hx : IsFin x) : max x (-x) ≠ ⊤ := by
  obtain ⟨r, rfl⟩ := hx.exists_coe
  rcases max_choice (r : EReal) (-(r : EReal)) with h | h
  · rw [h]; exact EReal.coe_ne_top r
  · rw [h, ← EReal.coe_neg]; exact EReal.coe_ne_top _

/-- Dividing by 127 keeps a value below top: bottom stays bottom, a real number stays real. -/
private theorem div127_ne_top {m : EReal} (hm : m ≠ ⊤) : Ideal.div m ((127 : ℝ) : EReal) ≠ ⊤ := by
  rw [Ideal.div_coe (by norm_num : (127 : ℝ) ≠ 0)]
  induction m using EReal.rec with
  | bot => rw [EReal.bot_mul_coe_of_pos (by norm_num)]; exact bot_ne_top
  | top => exact absurd rfl hm
  | coe r => rw [← EReal.coe_mul]; exact EReal.coe_ne_top _

/-- The scale of a tensor of real numbers is a real number. -/
theorem sc_fin {S : Shape} {axes : List (Fin S.rank)} (hred : S.ReducesTo axes S0) (h0 : 0 < S0.numel) (t : FVec Ideal S .f32)
    (ht : ∀ i, IsFin (t i)) : IsFin (sc hred h0 t) := by
  -- the scale, read at its one index: max (max|t| / 127, eps), max|t| the reduction's left fold from -inf
  obtain ⟨m, hm⟩ : ∃ m : EReal, m = Host.reduce (α := Ideal .f32) FloatOps.maximumf (Host.absf t)
      (constant (F := Ideal) S0 .f32 0xFF800000#32) hred h0 ix0 := ⟨_, rfl⟩
  have hM : m ≠ ⊤ := by
    rw [hm, Host.reduce_eq_foldl]
    refine foldl_max_ne_top (fun i => Host.absf t i) (fun i => abs_ne_top (ht i)) _ _ ?_
    show Ideal.ofBits .f32 0xFF800000#32 ≠ ⊤
    rw [cninf_eq]; exact bot_ne_top
  have hsc : sc hred h0 t = max (Ideal.div m (Ideal.ofBits .f32 0x42FE0000#32)) (Ideal.ofBits .f32 0x322BCC77#32) := by
    rw [hm]; rfl
  rw [hsc, c127_eq]
  constructor
  · rcases max_choice (Ideal.div m ((127 : ℝ) : EReal)) (Ideal.ofBits .f32 0x322BCC77#32) with h | h
    · rw [h]; exact div127_ne_top hM
    · rw [h]; exact ceps_fin.1
  · exact ne_bot_of_le_ne_bot ceps_fin.2 (le_max_right _ _)

/-- A layer's output is real when the scales and the bias are. -/
theorem lin_fin {M K N : Nat} {sx sw : EReal} (hsx : IsFin sx) (hsw : IsFin sw) (x : (⟨2, ![M, K]⟩ : Shape).Idx → EReal)
    (W : (⟨2, ![N, K]⟩ : Shape).Idx → EReal) (b : (⟨2, ![1, N]⟩ : Shape).Idx → EReal) (hb : ∀ j, IsFin (b j)) (i) :
    IsFin (lin sx sw x W b i) := by
  unfold lin
  exact (sum_fin _ _ fun k _ => (qe_fin hsx _).mul (qe_fin hsw _)).add (hb _)

end QuantLin

end
-- ==== Proof.LibDotNT.lean ====
/-
  A matrix product against a transposed right operand, its contraction sum re-indexed.

  For a contraction of a [R, K] array with a [C, K] array (no batch axis; each operand contracts its axis 1), the sum
  over the contraction's own index type of the operands' products at the result index (p, q) is the plain sum over
  k < K of l(p, k) * r(q, k).  Stated at abstract extents and for any such dimension record.

  Each operand's axis 0 is its only non-contracting axis: the left one reads the result index at position 0, the right
  one at position 1 (after the left operand's one non-contracting axis); each operand's axis 1 is its only contracting
  axis and reads the contraction index's one coordinate.  The contraction index type has one axis of extent K, so it is
  in bijection with the numbers below K, and the sum is carried along that bijection.
-/
import Idealize.ShloMosaic.PureOps.Dims
import Idealize.ShloMosaic.Lib.ValueIdx

namespace DotNT

open Idealize.ShloMosaic Idealize.ShloMosaic.ValueIdx

variable {R K C : Nat}

/-- Two ways of writing the same axis number give the same coordinate of an index. -/
private theorem val_at_congr {s : Shape} (j : s.Idx) {a b : Nat} (ha : a < s.rank) (hb : b < s.rank) (h : a = b) :
    (j ⟨a, ha⟩).val = (j ⟨b, hb⟩).val := by
  cases h; rfl

/-- Left operand, axis 0: it is the one non-contracting axis and no batch axis comes before it, so it reads the
    result index at position 0. -/
private theorem lhs_axis0 (d : DotDims ⟨2, ![R, K]⟩ ⟨2, ![C, K]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hnb : (0 : Fin 2) ∉ d.lhsBatch := by simp [hlb]
  have hmn : (0 : Fin 2) ∈ d.lhsNonContracting := by simp [hln]
  unfold DotDims.lhsIdx
  rw [dif_neg hnb, dif_pos hmn]
  simp only [Fin.val_cast]
  exact val_at_congr j _ _ (by simp [hlb, hln])

/-- Left operand, axis 1: the one contracting axis reads the contraction index's single coordinate. -/
private theorem lhs_axis1 (d : DotDims ⟨2, ![R, K]⟩ ⟨2, ![C, K]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- Right operand, axis 0: it is the one non-contracting axis of the right operand; with no batch axis and one
    non-contracting axis of the left operand before it, it reads the result index at position 0 + 1 + 0 = 1. -/
private theorem rhs_axis0 (d : DotDims ⟨2, ![R, K]⟩ ⟨2, ![C, K]⟩ ⟨2, ![R, C]⟩)
    (hlb : d.lhsBatch = []) (hln : d.lhsNonContracting = [0])
    (hrb : d.rhsBatch = []) (hrn : d.rhsNonContracting = [0])
    (j : (⟨2, ![R, C]⟩ : Shape).Idx) (k : d.contr.Idx) :
    (d.rhsIdx j k (0 : Fin 2)).val = (j (1 : Fin 2)).val := by
  have hnb : (0 : Fin 2) ∉ d.rhsBatch := by simp [hrb]
  have hmn : (0 : Fin 2) ∈ d.rhsNonContracting := by simp [hrn]
  unfold DotDims.rhsIdx
  rw [dif_neg hnb, dif_pos hmn]
  simp only [Fin.val_cast]
  exact val_at_congr j _ _ (by simp [hlb, hln, hrn])

/-- Right operand, axis 1: the one contracting axis reads the contraction index's single coordinate. -/
private theorem rhs_axis1 (d : DotDims ⟨2, ![R, K]⟩ ⟨2, ![C, K]⟩ ⟨2, ![R, C]⟩)
    (hrc : d.rhsContracting = [1]) (hr : d.contr.rank = 1)
    (j : (⟨2, ![R, C]⟩ : Shape).Idx) (k : d.contr.Idx) :
    (d.rhsIdx j k (1 : Fin 2)).val = (k ⟨0, by omega⟩).val :=
  d.rhsIdx_val_of_single hrc j k

/-- At the result index (p, q) and the contraction position carrying k, the left operand is read at (p, k). -/
private theorem lhsIdx_at (d : DotDims ⟨2, ![R, K]⟩ ⟨2, ![C, K]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_axis0 d hlb hln (ix2 p q) _
  | ⟨1, _⟩ => exact (lhs_axis1 d hlc hr (ix2 p q) _).trans (contrEquiv1_symm_val d K hr hs k)

/-- At the result index (p, q) and the contraction position carrying k, the right operand is read at (q, k). -/
private theorem rhsIdx_at (d : DotDims ⟨2, ![R, K]⟩ ⟨2, ![C, K]⟩ ⟨2, ![R, C]⟩)
    (hlb : d.lhsBatch = []) (hln : d.lhsNonContracting = [0])
    (hrb : d.rhsBatch = []) (hrn : d.rhsNonContracting = [0]) (hrc : d.rhsContracting = [1])
    (hr : d.contr.rank = 1) (hs : d.contr.size ⟨0, by omega⟩ = K)
    (p : Fin R) (q : Fin C) (k : Fin K) :
    d.rhsIdx (ix2 p q) ((contrEquiv1 d K hr hs).symm k) = ix2 q k := by
  funext a
  apply Fin.ext
  match a with
  | ⟨0, _⟩ => exact rhs_axis0 d hlb hln hrb hrn (ix2 p q) _
  | ⟨1, _⟩ => exact (rhs_axis1 d hrc hr (ix2 p q) _).trans (contrEquiv1_symm_val d K hr hs k)

/-- The contraction sum at (p, q) is the sum over k < K of l (p, k) * r (q, k). -/
theorem sum_eq {M : Type} [AddCommMonoid M] [Mul M] (d : DotDims ⟨2, ![R, K]⟩ ⟨2, ![C, K]⟩ ⟨2, ![R, C]⟩)
    (hlb : d.lhsBatch = []) (hln : d.lhsNonContracting = [0]) (hlc : d.lhsContracting = [1])
    (hrb : d.rhsBatch = []) (hrn : d.rhsNonContracting = [0]) (hrc : d.rhsContracting = [1])
    (l : (⟨2, ![R, K]⟩ : Shape).Idx → M) (r : (⟨2, ![C, K]⟩ : Shape).Idx → M) (p : Fin R) (q : Fin C) :
    ∑ k : d.contr.Idx, l (d.lhsIdx (ix2 p q) k) * r (d.rhsIdx (ix2 p q) k) = ∑ k : Fin K, l (ix2 p k) * r (ix2 q k) := by
  -- the contraction shape has one axis, of extent K (the left operand's axis 1)
  have hr : d.contr.rank = 1 := by rw [d.rank_contr, hlc]; rfl
  have hs : d.contr.size ⟨0, by omega⟩ = K := by
    rw [d.size_contr 0 (by rw [hlc]; exact Nat.one_pos)]
    simp [hlc]
  -- carry the sum along the bijection with the numbers below K, then read both operands' indices
  rw [← Equiv.sum_comp (contrEquiv1 d K hr hs).symm]
  refine Finset.sum_congr rfl fun k _ => ?_
  rw [lhsIdx_at d hlb hln hlc hr hs p q k, rhsIdx_at d hlb hln hrb hrn hrc hr hs p q k]

end DotNT
-- ==== Proof.Region0.lean ====
/-
  Region 0: what the layer's pallas_call leaves in its output array, as one function of the arrays the region finds.

  The body at one grid point stores one [1024, 512] block: the quantised [1024, 512] activation block times the
  transposed quantised [512, 512] weight block, plus the [1, 512] bias block broadcast down the rows.  Read at an
  index (p, q) of the block this is the sum over k < 512 of Q(x)(p, k) * Q(W)(q, k), plus b(0, q), the scales being the
  single entries of the two [1, 1] blocks.  Grid point (i0, i1) of the 16 x 4 grid reads the activation block (i0, 0),
  the weight block (i1, 0), the bias block (0, i1) and writes the output block (i0, i1), so what it writes back is that
  block of the one-layer function of the whole arrays; the 16 x 4 output blocks tile the [16384, 2048] array.
-/
import proofs.«110473_j3513283248696_1_alg».proof.Proof.Gen.KernelIdeal.Frame
import proofs.«110473_j3513283248696_1_alg».proof.Proof.QuantSpec
import proofs.«110473_j3513283248696_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-! ## The body's payload at an index -/

/-- The one entry of a [1, 1] block, read at position (0, 0). -/
private theorem extract_one (v : Vec Ideal S1x1 .f32) (h : ∀ a, (![0, 0] : Fin 2 → Nat) a < S1x1.size a) :
    extractAt ![0, 0] v h = v (ix2 0 0) :=
  congrArg v (funext fun a => by match a with | ⟨0, _⟩ => rfl | ⟨1, _⟩ => rfl)

/-- The stored [1024, 512] block at (p, q): the contraction over k < 512 of the quantised activation row p with the
    quantised weight row q, plus the bias entry (0, q).  The matrix product starts from the zero accumulator, its
    contraction sum is re-indexed to k < 512, the roundings to bf16 are the identity on the ideal values, and an entry
    of either quantised operand is the quantised entry of the specification term by term. -/
theorem pay_apply (v0 v2 : Vec Ideal S1x1 .f32) (v4 : Vec Ideal S1024x512 .f32) (v5 : Vec Ideal S512x512 .f32)
    (v27 : Vec Ideal S1x512 .f32) (p : Fin 1024) (q : Fin 512) :
    k0_pay1 (F := Ideal) v0 v2 v4 v5 v27 (ix2 p q)
      = (∑ k : Fin 512, QuantLin.qe (v0 (ix2 0 0)) (v4 (ix2 p k)) * QuantLin.qe (v2 (ix2 0 0)) (v5 (ix2 q k))) + v27 (ix2 0 q) := by
  unfold k0_pay1
  rw [extract_one v0, extract_one v2]
  simp only [shapeCast_self]
  refine (addf_apply _ _ _).trans ?_
  refine congrArg₂ (· + ·) ?_ ?_
  · refine (Ideal.matmul_constant_zero_apply dot_S1024x512_S512x512_S1024x512_1_1_0_0_n_n none _ _ (ix2 p q)).trans ?_
    refine (DotNT.sum_eq dot_S1024x512_S512x512_S1024x512_1_1_0_0_n_n rfl rfl rfl rfl rfl rfl _ _ p q).trans ?_
    refine Finset.sum_congr rfl fun k _ => ?_
    rfl
  · exact broadcastTo_apply _ _ _ (ix2 0 q) (fun a => by
      match a with
      | ⟨0, _⟩ => rfl
      | ⟨1, _⟩ => rfl)

/-! ## From blocks to the array -/

/-- One layer of the arrays the region finds: x = main_arg0 [16384, 512], W = main_arg1 [2048, 512], the bias row
    main_v10 [1, 2048], the scales the entries of main_v4 and main_v9. -/
abbrev layer0 (c : Dev nD) : S16384x2048.Idx → EReal :=
  QuantLin.lin (M := 16384) (K := 512) (N := 2048) ((V c main_v4 : S1x1.Idx → EReal) (ix2 0 0)) ((V c main_v9 : S1x1.Idx → EReal) (ix2 0 0))
    (V c main_arg0) (V c main_arg1) (V c main_v10)

/-- The body's accesses all start at offset (0, 0). -/
theorem origin0 : (![0, 0] : Fin 2 → Nat) = fun _ => 0 := funext fun a => by fin_cases a <;> rfl

/-- The printed index maps, decided once over the 16 x 4 grid: the activation block follows the output's row block, the
    weight block's ROW index and the bias block's column index follow the output's column block, the two scales stay
    at block (0, 0), and the output's block is (t / 4, t % 4). -/
theorem block_index0 : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = t.val % 4 :=
  (by decide +kernel : ∀ t : Fin grid0.N, _)

/-- What point t writes back is block t of the layer of the whole arrays. -/
theorem flushed_eq0 (c : Dev nD) (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin0]
  simp only [View.ld_unit_zero (S := S1024x512) origin0, View.ld_unit_zero (S := S512x512) origin0,
    View.ld_unit_zero (S := S1x512) origin0, View.ld_unit_zero (S := S1x1) origin0]
  obtain ⟨a00, a01, a10, a11, a20, a21, a30, a31, a40, a41, a50, a51⟩ := block_index0 t
  funext j
  obtain ⟨p, q, rfl⟩ : ∃ (p : Fin 1024) (q : Fin 512), j = ix2 p q := ⟨j 0, j 1, eq_ix2 j⟩
  refine (pay_apply (iblk0 V c 3 t) (iblk0 V c 4 t) (iblk0 V c 0 t) (iblk0 V c 1 t) (iblk0 V c 2 t) p q).trans ?_
  show _ = layer0 V c (((cfg0.win 5).blk t).view.emb (ix2 p q))
  -- where the output's block sits in the [16384, 2048] array
  have e0 : ((((cfg0.win 5).blk t).view.emb (ix2 p q)) 0).val = win0_5.index t (0 : Fin 2) * 1024 + 1 * p.val := rfl
  have e1 : ((((cfg0.win 5).blk t).view.emb (ix2 p q)) 1).val = win0_5.index t (1 : Fin 2) * 512 + 1 * q.val := rfl
  -- each input block read where that rectangle says
  have h3 : iblk0 V c 3 t (ix2 0 0) = (V c main_v4 : S1x1.Idx → EReal) (ix2 0 0) := by
    show (V c main_v4 : S1x1.Idx → EReal) (((cfg0.win 3).blk t).view.emb (ix2 0 0)) = _
    refine congrArg (V c main_v4 : S1x1.Idx → EReal) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  have h4 : iblk0 V c 4 t (ix2 0 0) = (V c main_v9 : S1x1.Idx → EReal) (ix2 0 0) := by
    show (V c main_v9 : S1x1.Idx → EReal) (((cfg0.win 4).blk t).view.emb (ix2 0 0)) = _
    refine congrArg (V c main_v9 : S1x1.Idx → EReal) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  have h0 : ∀ k : Fin 512, iblk0 V c 0 t (ix2 p k)
      = (V c main_arg0 : S16384x512.Idx → EReal) (ix2 ((((cfg0.win 5).blk t).view.emb (ix2 p q)) 0) k) := fun k => by
    show (V c main_arg0 : S16384x512.Idx → EReal) (((cfg0.win 0).blk t).view.emb (ix2 p k)) = _
    refine congrArg (V c main_arg0 : S16384x512.Idx → EReal) (funext fun a => Fin.ext ?_)
    match a with
    | ⟨0, _⟩ => show win0_0.index t (0 : Fin 2) * 1024 + 1 * p.val = ((((cfg0.win 5).blk t).view.emb (ix2 p q)) 0).val; omega
    | ⟨1, _⟩ => show win0_0.index t (1 : Fin 2) * 512 + 1 * k.val = k.val; omega
  have h1 : ∀ k : Fin 512, iblk0 V c 1 t (ix2 q k)
      = (V c main_arg1 : S2048x512.Idx → EReal) (ix2 ((((cfg0.win 5).blk t).view.emb (ix2 p q)) 1) k) := fun k => by
    show (V c main_arg1 : S2048x512.Idx → EReal) (((cfg0.win 1).blk t).view.emb (ix2 q k)) = _
    refine congrArg (V c main_arg1 : S2048x512.Idx → EReal) (funext fun a => Fin.ext ?_)
    match a with
    | ⟨0, _⟩ => show win0_1.index t (0 : Fin 2) * 512 + 1 * q.val = ((((cfg0.win 5).blk t).view.emb (ix2 p q)) 1).val; omega
    | ⟨1, _⟩ => show win0_1.index t (1 : Fin 2) * 512 + 1 * k.val = k.val; omega
  have h2 : iblk0 V c 2 t (ix2 0 q)
      = (V c main_v10 : S1x2048.Idx → EReal) (ix2 0 ((((cfg0.win 5).blk t).view.emb (ix2 p q)) 1)) := by
    show (V c main_v10 : S1x2048.Idx → EReal) (((cfg0.win 2).blk t).view.emb (ix2 0 q)) = _
    refine congrArg (V c main_v10 : S1x2048.Idx → EReal) (funext fun a => Fin.ext ?_)
    match a with
    | ⟨0, _⟩ => show win0_2.index t (0 : Fin 2) * 1 + 1 * 0 = 0; omega
    | ⟨1, _⟩ => show win0_2.index t (1 : Fin 2) * 512 + 1 * q.val = ((((cfg0.win 5).blk t).view.emb (ix2 p q)) 1).val; omega
  refine congrArg₂ (· + ·) (Finset.sum_congr rfl fun k _ => ?_) h2
  exact congrArg₂ (· * ·) (congrArg₂ QuantLin.qe h3 (h0 k)) (congrArg₂ QuantLin.qe h4 (h1 k))

/-- An index of the [16384, 2048] array is in point t's block iff each coordinate is in the block's range on its axis. -/
theorem mem_blk0 (t : Fin cfg0.N) (i : S16384x2048.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v11).slice (win0_5.rect t)).set ↔ _
  rw [View.set_slice_whole, Rect.mem_set_unit]
  exact Iff.rfl

/-- The 16 x 4 output blocks cover the array: the index (r, s) lies in the block of the point with grid coordinates
    (r / 1024, s / 512), which is point (r / 1024) * 4 + s / 512. -/
theorem cover0 (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  have hN : cfg0.N = 64 := N_0
  have ht : (i 0).val / 1024 * 4 + (i 1).val / 512 < cfg0.N := by rw [hN]; omega
  obtain ⟨-, -, -, -, -, -, -, -, -, -, a50, a51⟩ := block_index0 ⟨(i 0).val / 1024 * 4 + (i 1).val / 512, ht⟩
  have q0 : win0_5.index ⟨(i 0).val / 1024 * 4 + (i 1).val / 512, ht⟩ (0 : Fin 2) = (i 0).val / 1024 := by
    rw [a50]; show ((i 0).val / 1024 * 4 + (i 1).val / 512) / 4 = _; omega
  have q1 : win0_5.index ⟨(i 0).val / 1024 * 4 + (i 1).val / 512, ht⟩ (1 : Fin 2) = (i 1).val / 512 := by
    rw [a51]; show ((i 0).val / 1024 * 4 + (i 1).val / 512) % 4 = _; omega
  refine ⟨⟨(i 0).val / 1024 * 4 + (i 1).val / 512, ht⟩, flush0_5 _, ?_⟩
  rw [mem_blk0]
  intro a
  match a with
  | ⟨0, _⟩ =>
    show win0_5.index ⟨(i 0).val / 1024 * 4 + (i 1).val / 512, ht⟩ (0 : Fin 2) * 1024 ≤ (i 0).val
      ∧ (i 0).val < win0_5.index ⟨(i 0).val / 1024 * 4 + (i 1).val / 512, ht⟩ (0 : Fin 2) * 1024 + 1024
    omega
  | ⟨1, _⟩ =>
    show win0_5.index ⟨(i 0).val / 1024 * 4 + (i 1).val / 512, ht⟩ (1 : Fin 2) * 512 ≤ (i 1).val
      ∧ (i 1).val < win0_5.index ⟨(i 0).val / 1024 * 4 + (i 1).val / 512, ht⟩ (1 : Fin 2) * 512 + 512
    omega

/-- After the region its output array is one layer of the arrays the region found. -/
theorem final (c : Dev nD) :
    (dat0 (F := Ideal) V c).arrAt 5 cfg0.N
      = (QuantLin.lin (M := 16384) (K := 512) (N := 2048) ((V c main_v4 : S1x1.Idx → EReal) (ix2 0 0)) ((V c main_v9 : S1x1.Idx → EReal) (ix2 0 0))
          (V c main_arg0) (V c main_arg1) (V c main_v10) : S16384x2048.Idx → EReal) :=
  (dat0 (F := Ideal) V c).arrAt_eq_of_cover 5 (layer0 V c) (fun t _ => flushed_eq0 V c t) cover0

end Cert.KernelIdeal.Region0

end
-- ==== Proof.Region1.lean ====
/-
  Region 1: what the layer's pallas_call leaves in its output array, as one function of the arrays the region finds.

  The body at one grid point stores one [256, 256] block: the quantised [256, 2048] activation block times the
  transposed quantised [256, 2048] weight block, plus the [1, 256] bias block broadcast down the rows.  Read at an
  index (p, q) of the block this is the sum over k < 2048 of Q(x)(p, k) * Q(W)(q, k), plus b(0, q), the scales being the
  single entries of the two [1, 1] blocks.  Grid point (i0, i1) of the 64 x 8 grid reads the activation block (i0, 0),
  the weight block (i1, 0), the bias block (0, i1) and writes the output block (i0, i1), so what it writes back is that
  block of the one-layer function of the whole arrays; the 64 x 8 output blocks tile the [16384, 2048] array.
-/
import proofs.«110473_j3513283248696_1_alg».proof.Proof.Gen.KernelIdeal.Frame
import proofs.«110473_j3513283248696_1_alg».proof.Proof.QuantSpec
import proofs.«110473_j3513283248696_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-! ## The body's payload at an index -/

/-- The one entry of a [1, 1] block, read at position (0, 0). -/
private theorem extract_one (v : Vec Ideal S1x1 .f32) (h : ∀ a, (![0, 0] : Fin 2 → Nat) a < S1x1.size a) :
    extractAt ![0, 0] v h = v (ix2 0 0) :=
  congrArg v (funext fun a => by match a with | ⟨0, _⟩ => rfl | ⟨1, _⟩ => rfl)

/-- The stored [256, 256] block at (p, q): the contraction over k < 2048 of the quantised activation row p with the
    quantised weight row q, plus the bias entry (0, q).  The matrix product starts from the zero accumulator, its
    contraction sum is re-indexed to k < 2048, the roundings to bf16 are the identity on the ideal values, and an entry
    of either quantised operand is the quantised entry of the specification term by term. -/
theorem pay_apply (v0 v2 : Vec Ideal S1x1 .f32) (v4 : Vec Ideal S256x2048 .f32) (v5 : Vec Ideal S256x2048 .f32)
    (v27 : Vec Ideal S1x256 .f32) (p : Fin 256) (q : Fin 256) :
    k1_pay1 (F := Ideal) v0 v2 v4 v5 v27 (ix2 p q)
      = (∑ k : Fin 2048, QuantLin.qe (v0 (ix2 0 0)) (v4 (ix2 p k)) * QuantLin.qe (v2 (ix2 0 0)) (v5 (ix2 q k))) + v27 (ix2 0 q) := by
  unfold k1_pay1
  rw [extract_one v0, extract_one v2]
  simp only [shapeCast_self]
  refine (addf_apply _ _ _).trans ?_
  refine congrArg₂ (· + ·) ?_ ?_
  · refine (Ideal.matmul_constant_zero_apply dot_S256x2048_S256x2048_S256x256_1_1_0_0_n_n none _ _ (ix2 p q)).trans ?_
    refine (DotNT.sum_eq dot_S256x2048_S256x2048_S256x256_1_1_0_0_n_n rfl rfl rfl rfl rfl rfl _ _ p q).trans ?_
    refine Finset.sum_congr rfl fun k _ => ?_
    rfl
  · exact broadcastTo_apply _ _ _ (ix2 0 q) (fun a => by
      match a with
      | ⟨0, _⟩ => rfl
      | ⟨1, _⟩ => rfl)

/-! ## From blocks to the array -/

/-- One layer of the arrays the region finds: x = main_v11 [16384, 2048], W = main_arg3 [2048, 2048], the bias row
    main_v22 [1, 2048], the scales the entries of main_v16 and main_v21. -/
abbrev layer1 (c : Dev nD) : S16384x2048.Idx → EReal :=
  QuantLin.lin (M := 16384) (K := 2048) (N := 2048) ((V c main_v16 : S1x1.Idx → EReal) (ix2 0 0)) ((V c main_v21 : S1x1.Idx → EReal) (ix2 0 0))
    (V c main_v11) (V c main_arg3) (V c main_v22)

/-- The body's accesses all start at offset (0, 0). -/
theorem origin1 : (![0, 0] : Fin 2 → Nat) = fun _ => 0 := funext fun a => by fin_cases a <;> rfl

/-- The printed index maps, decided once over the 64 x 8 grid: the activation block follows the output's row block, the
    weight block's ROW index and the bias block's column index follow the output's column block, the two scales stay
    at block (0, 0), and the output's block is (t / 8, t % 8). -/
theorem block_index1 : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = 0 ∧ win1_2.index t (1 : Fin 2) = win1_5.index t (1 : Fin 2)
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = t.val % 8 :=
  (by decide +kernel : ∀ t : Fin grid1.N, _)

/-- What point t writes back is block t of the layer of the whole arrays. -/
theorem flushed_eq1 (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero origin1]
  simp only [View.ld_unit_zero (S := S256x2048) origin1, View.ld_unit_zero (S := S256x2048) origin1,
    View.ld_unit_zero (S := S1x256) origin1, View.ld_unit_zero (S := S1x1) origin1]
  obtain ⟨a00, a01, a10, a11, a20, a21, a30, a31, a40, a41, a50, a51⟩ := block_index1 t
  funext j
  obtain ⟨p, q, rfl⟩ : ∃ (p : Fin 256) (q : Fin 256), j = ix2 p q := ⟨j 0, j 1, eq_ix2 j⟩
  refine (pay_apply (iblk1 V c 3 t) (iblk1 V c 4 t) (iblk1 V c 0 t) (iblk1 V c 1 t) (iblk1 V c 2 t) p q).trans ?_
  show _ = layer1 V c (((cfg1.win 5).blk t).view.emb (ix2 p q))
  -- where the output's block sits in the [16384, 2048] array
  have e0 : ((((cfg1.win 5).blk t).view.emb (ix2 p q)) 0).val = win1_5.index t (0 : Fin 2) * 256 + 1 * p.val := rfl
  have e1 : ((((cfg1.win 5).blk t).view.emb (ix2 p q)) 1).val = win1_5.index t (1 : Fin 2) * 256 + 1 * q.val := rfl
  -- each input block read where that rectangle says
  have h3 : iblk1 V c 3 t (ix2 0 0) = (V c main_v16 : S1x1.Idx → EReal) (ix2 0 0) := by
    show (V c main_v16 : S1x1.Idx → EReal) (((cfg1.win 3).blk t).view.emb (ix2 0 0)) = _
    refine congrArg (V c main_v16 : S1x1.Idx → EReal) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  have h4 : iblk1 V c 4 t (ix2 0 0) = (V c main_v21 : S1x1.Idx → EReal) (ix2 0 0) := by
    show (V c main_v21 : S1x1.Idx → EReal) (((cfg1.win 4).blk t).view.emb (ix2 0 0)) = _
    refine congrArg (V c main_v21 : S1x1.Idx → EReal) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  have h0 : ∀ k : Fin 2048, iblk1 V c 0 t (ix2 p k)
      = (V c main_v11 : S16384x2048.Idx → EReal) (ix2 ((((cfg1.win 5).blk t).view.emb (ix2 p q)) 0) k) := fun k => by
    show (V c main_v11 : S16384x2048.Idx → EReal) (((cfg1.win 0).blk t).view.emb (ix2 p k)) = _
    refine congrArg (V c main_v11 : S16384x2048.Idx → EReal) (funext fun a => Fin.ext ?_)
    match a with
    | ⟨0, _⟩ => show win1_0.index t (0 : Fin 2) * 256 + 1 * p.val = ((((cfg1.win 5).blk t).view.emb (ix2 p q)) 0).val; omega
    | ⟨1, _⟩ => show win1_0.index t (1 : Fin 2) * 2048 + 1 * k.val = k.val; omega
  have h1 : ∀ k : Fin 2048, iblk1 V c 1 t (ix2 q k)
      = (V c main_arg3 : S2048x2048.Idx → EReal) (ix2 ((((cfg1.win 5).blk t).view.emb (ix2 p q)) 1) k) := fun k => by
    show (V c main_arg3 : S2048x2048.Idx → EReal) (((cfg1.win 1).blk t).view.emb (ix2 q k)) = _
    refine congrArg (V c main_arg3 : S2048x2048.Idx → EReal) (funext fun a => Fin.ext ?_)
    match a with
    | ⟨0, _⟩ => show win1_1.index t (0 : Fin 2) * 256 + 1 * q.val = ((((cfg1.win 5).blk t).view.emb (ix2 p q)) 1).val; omega
    | ⟨1, _⟩ => show win1_1.index t (1 : Fin 2) * 2048 + 1 * k.val = k.val; omega
  have h2 : iblk1 V c 2 t (ix2 0 q)
      = (V c main_v22 : S1x2048.Idx → EReal) (ix2 0 ((((cfg1.win 5).blk t).view.emb (ix2 p q)) 1)) := by
    show (V c main_v22 : S1x2048.Idx → EReal) (((cfg1.win 2).blk t).view.emb (ix2 0 q)) = _
    refine congrArg (V c main_v22 : S1x2048.Idx → EReal) (funext fun a => Fin.ext ?_)
    match a with
    | ⟨0, _⟩ => show win1_2.index t (0 : Fin 2) * 1 + 1 * 0 = 0; omega
    | ⟨1, _⟩ => show win1_2.index t (1 : Fin 2) * 256 + 1 * q.val = ((((cfg1.win 5).blk t).view.emb (ix2 p q)) 1).val; omega
  refine congrArg₂ (· + ·) (Finset.sum_congr rfl fun k _ => ?_) h2
  exact congrArg₂ (· * ·) (congrArg₂ QuantLin.qe h3 (h0 k)) (congrArg₂ QuantLin.qe h4 (h1 k))

/-- An index of the [16384, 2048] array is in point t's block iff each coordinate is in the block's range on its axis. -/
theorem mem_blk1 (t : Fin cfg1.N) (i : S16384x2048.Idx) :
    i ∈ ((cfg1.win 5).blk t).view.set ↔ ∀ a : Fin 2, win1_5.index t a * S256x256.size a ≤ (i a).val ∧ (i a).val < win1_5.index t a * S256x256.size a + S256x256.size a := by
  show i ∈ ((View.whole main_v23).slice (win1_5.rect t)).set ↔ _
  rw [View.set_slice_whole, Rect.mem_set_unit]
  exact Iff.rfl

/-- The 64 x 8 output blocks cover the array: the index (r, s) lies in the block of the point with grid coordinates
    (r / 256, s / 256), which is point (r / 256) * 8 + s / 256. -/
theorem cover1 (i : S16384x2048.Idx) : ∃ t : Fin cfg1.N, (cfg1.win 5).flush t = true ∧ i ∈ ((cfg1.win 5).blk t).view.set := by
  have hi0 : (i 0).val < 16384 := (i 0).isLt
  have hi1 : (i 1).val < 2048 := (i 1).isLt
  have hN : cfg1.N = 512 := N_1
  have ht : (i 0).val / 256 * 8 + (i 1).val / 256 < cfg1.N := by rw [hN]; omega
  obtain ⟨-, -, -, -, -, -, -, -, -, -, a50, a51⟩ := block_index1 ⟨(i 0).val / 256 * 8 + (i 1).val / 256, ht⟩
  have q0 : win1_5.index ⟨(i 0).val / 256 * 8 + (i 1).val / 256, ht⟩ (0 : Fin 2) = (i 0).val / 256 := by
    rw [a50]; show ((i 0).val / 256 * 8 + (i 1).val / 256) / 8 = _; omega
  have q1 : win1_5.index ⟨(i 0).val / 256 * 8 + (i 1).val / 256, ht⟩ (1 : Fin 2) = (i 1).val / 256 := by
    rw [a51]; show ((i 0).val / 256 * 8 + (i 1).val / 256) % 8 = _; omega
  refine ⟨⟨(i 0).val / 256 * 8 + (i 1).val / 256, ht⟩, flush1_5 _, ?_⟩
  rw [mem_blk1]
  intro a
  match a with
  | ⟨0, _⟩ =>
    show win1_5.index ⟨(i 0).val / 256 * 8 + (i 1).val / 256, ht⟩ (0 : Fin 2) * 256 ≤ (i 0).val
      ∧ (i 0).val < win1_5.index ⟨(i 0).val / 256 * 8 + (i 1).val / 256, ht⟩ (0 : Fin 2) * 256 + 256
    omega
  | ⟨1, _⟩ =>
    show win1_5.index ⟨(i 0).val / 256 * 8 + (i 1).val / 256, ht⟩ (1 : Fin 2) * 256 ≤ (i 1).val
      ∧ (i 1).val < win1_5.index ⟨(i 0).val / 256 * 8 + (i 1).val / 256, ht⟩ (1 : Fin 2) * 256 + 256
    omega

/-- After the region its output array is one layer of the arrays the region found. -/
theorem final (c : Dev nD) :
    (dat1 (F := Ideal) V c).arrAt 5 cfg1.N
      = (QuantLin.lin (M := 16384) (K := 2048) (N := 2048) ((V c main_v16 : S1x1.Idx → EReal) (ix2 0 0)) ((V c main_v21 : S1x1.Idx → EReal) (ix2 0 0))
          (V c main_v11) (V c main_arg3) (V c main_v22) : S16384x2048.Idx → EReal) :=
  (dat1 (F := Ideal) V c).arrAt_eq_of_cover 5 (layer1 V c) (fun t _ => flushed_eq1 V c t) cover1

end Cert.KernelIdeal.Region1

end
-- ==== Proof.Region2.lean ====
/-
  Region 2: what the layer's pallas_call leaves in its output array, as one function of the arrays the region finds.

  The body at one grid point stores one [256, 512] block: the quantised [256, 2048] activation block times the
  transposed quantised [512, 2048] weight block, plus the [1, 512] bias block broadcast down the rows.  Read at an
  index (p, q) of the block this is the sum over k < 2048 of Q(x)(p, k) * Q(W)(q, k), plus b(0, q), the scales being the
  single entries of the two [1, 1] blocks.  Grid point (i0, i1) of the 64 x 1 grid reads the activation block (i0, 0),
  the weight block (i1, 0), the bias block (0, i1) and writes the output block (i0, i1), so what it writes back is that
  block of the one-layer function of the whole arrays; the 64 x 1 output blocks tile the [16384, 512] array.
-/
import proofs.«110473_j3513283248696_1_alg».proof.Proof.Gen.KernelIdeal.Frame
import proofs.«110473_j3513283248696_1_alg».proof.Proof.QuantSpec
import proofs.«110473_j3513283248696_1_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-! ## The body's payload at an index -/

/-- The one entry of a [1, 1] block, read at position (0, 0). -/
private theorem extract_one (v : Vec Ideal S1x1 .f32) (h : ∀ a, (![0, 0] : Fin 2 → Nat) a < S1x1.size a) :
    extractAt ![0, 0] v h = v (ix2 0 0) :=
  congrArg v (funext fun a => by match a with | ⟨0, _⟩ => rfl | ⟨1, _⟩ => rfl)

/-- The stored [256, 512] block at (p, q): the contraction over k < 2048 of the quantised activation row p with the
    quantised weight row q, plus the bias entry (0, q).  The matrix product starts from the zero accumulator, its
    contraction sum is re-indexed to k < 2048, the roundings to bf16 are the identity on the ideal values, and an entry
    of either quantised operand is the quantised entry of the specification term by term. -/
theorem pay_apply (v0 v2 : Vec Ideal S1x1 .f32) (v4 : Vec Ideal S256x2048 .f32) (v5 : Vec Ideal S512x2048 .f32)
    (v27 : Vec Ideal S1x512 .f32) (p : Fin 256) (q : Fin 512) :
    k2_pay1 (F := Ideal) v0 v2 v4 v5 v27 (ix2 p q)
      = (∑ k : Fin 2048, QuantLin.qe (v0 (ix2 0 0)) (v4 (ix2 p k)) * QuantLin.qe (v2 (ix2 0 0)) (v5 (ix2 q k))) + v27 (ix2 0 q) := by
  unfold k2_pay1
  rw [extract_one v0, extract_one v2]
  simp only [shapeCast_self]
  refine (addf_apply _ _ _).trans ?_
  refine congrArg₂ (· + ·) ?_ ?_
  · refine (Ideal.matmul_constant_zero_apply dot_S256x2048_S512x2048_S256x512_1_1_0_0_n_n none _ _ (ix2 p q)).trans ?_
    refine (DotNT.sum_eq dot_S256x2048_S512x2048_S256x512_1_1_0_0_n_n rfl rfl rfl rfl rfl rfl _ _ p q).trans ?_
    refine Finset.sum_congr rfl fun k _ => ?_
    rfl
  · exact broadcastTo_apply _ _ _ (ix2 0 q) (fun a => by
      match a with
      | ⟨0, _⟩ => rfl
      | ⟨1, _⟩ => rfl)

/-! ## From blocks to the array -/

/-- One layer of the arrays the region finds: x = main_v23 [16384, 2048], W = main_arg5 [512, 2048], the bias row
    main_v34 [1, 512], the scales the entries of main_v28 and main_v33. -/
abbrev layer2 (c : Dev nD) : S16384x512.Idx → EReal :=
  QuantLin.lin (M := 16384) (K := 2048) (N := 512) ((V c main_v28 : S1x1.Idx → EReal) (ix2 0 0)) ((V c main_v33 : S1x1.Idx → EReal) (ix2 0 0))
    (V c main_v23) (V c main_arg5) (V c main_v34)

/-- The body's accesses all start at offset (0, 0). -/
theorem origin2 : (![0, 0] : Fin 2 → Nat) = fun _ => 0 := funext fun a => by fin_cases a <;> rfl

/-- The printed index maps, decided once over the 64 x 1 grid: the activation block follows the output's row block, the
    weight block's ROW index and the bias block's column index follow the output's column block, the two scales stay
    at block (0, 0), and the output's block is (t / 1, t % 1). -/
theorem block_index2 : ∀ t : Fin cfg2.N,
    win2_0.index t (0 : Fin 2) = win2_5.index t (0 : Fin 2) ∧ win2_0.index t (1 : Fin 2) = 0
    ∧ win2_1.index t (0 : Fin 2) = win2_5.index t (1 : Fin 2) ∧ win2_1.index t (1 : Fin 2) = 0
    ∧ win2_2.index t (0 : Fin 2) = 0 ∧ win2_2.index t (1 : Fin 2) = win2_5.index t (1 : Fin 2)
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 1 ∧ win2_5.index t (1 : Fin 2) = t.val % 1 :=
  (by decide +kernel : ∀ t : Fin grid2.N, _)

/-- What point t writes back is block t of the layer of the whole arrays. -/
theorem flushed_eq2 (c : Dev nD) (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero origin2]
  simp only [View.ld_unit_zero (S := S256x2048) origin2, View.ld_unit_zero (S := S512x2048) origin2,
    View.ld_unit_zero (S := S1x512) origin2, View.ld_unit_zero (S := S1x1) origin2]
  obtain ⟨a00, a01, a10, a11, a20, a21, a30, a31, a40, a41, a50, a51⟩ := block_index2 t
  funext j
  obtain ⟨p, q, rfl⟩ : ∃ (p : Fin 256) (q : Fin 512), j = ix2 p q := ⟨j 0, j 1, eq_ix2 j⟩
  refine (pay_apply (iblk2 V c 3 t) (iblk2 V c 4 t) (iblk2 V c 0 t) (iblk2 V c 1 t) (iblk2 V c 2 t) p q).trans ?_
  show _ = layer2 V c (((cfg2.win 5).blk t).view.emb (ix2 p q))
  -- where the output's block sits in the [16384, 512] array
  have e0 : ((((cfg2.win 5).blk t).view.emb (ix2 p q)) 0).val = win2_5.index t (0 : Fin 2) * 256 + 1 * p.val := rfl
  have e1 : ((((cfg2.win 5).blk t).view.emb (ix2 p q)) 1).val = win2_5.index t (1 : Fin 2) * 512 + 1 * q.val := rfl
  -- each input block read where that rectangle says
  have h3 : iblk2 V c 3 t (ix2 0 0) = (V c main_v28 : S1x1.Idx → EReal) (ix2 0 0) := by
    show (V c main_v28 : S1x1.Idx → EReal) (((cfg2.win 3).blk t).view.emb (ix2 0 0)) = _
    refine congrArg (V c main_v28 : S1x1.Idx → EReal) (funext fun a => Fin.ext ?_)
    match a with
    | ⟨0, _⟩ => show win2_3.index t (0 : Fin 2) * 1 + 1 * 0 = 0; omega
    | ⟨1, _⟩ => show win2_3.index t (1 : Fin 2) * 1 + 1 * 0 = 0; omega
  have h4 : iblk2 V c 4 t (ix2 0 0) = (V c main_v33 : S1x1.Idx → EReal) (ix2 0 0) := by
    show (V c main_v33 : S1x1.Idx → EReal) (((cfg2.win 4).blk t).view.emb (ix2 0 0)) = _
    refine congrArg (V c main_v33 : S1x1.Idx → EReal) (funext fun a => Fin.ext ?_)
    match a with
    | ⟨0, _⟩ => show win2_4.index t (0 : Fin 2) * 1 + 1 * 0 = 0; omega
    | ⟨1, _⟩ => show win2_4.index t (1 : Fin 2) * 1 + 1 * 0 = 0; omega
  have h0 : ∀ k : Fin 2048, iblk2 V c 0 t (ix2 p k)
      = (V c main_v23 : S16384x2048.Idx → EReal) (ix2 ((((cfg2.win 5).blk t).view.emb (ix2 p q)) 0) k) := fun k => by
    show (V c main_v23 : S16384x2048.Idx → EReal) (((cfg2.win 0).blk t).view.emb (ix2 p k)) = _
    refine congrArg (V c main_v23 : S16384x2048.Idx → EReal) (funext fun a => Fin.ext ?_)
    match a with
    | ⟨0, _⟩ => show win2_0.index t (0 : Fin 2) * 256 + 1 * p.val = ((((cfg2.win 5).blk t).view.emb (ix2 p q)) 0).val; omega
    | ⟨1, _⟩ => show win2_0.index t (1 : Fin 2) * 2048 + 1 * k.val = k.val; omega
  have h1 : ∀ k : Fin 2048, iblk2 V c 1 t (ix2 q k)
      = (V c main_arg5 : S512x2048.Idx → EReal) (ix2 ((((cfg2.win 5).blk t).view.emb (ix2 p q)) 1) k) := fun k => by
    show (V c main_arg5 : S512x2048.Idx → EReal) (((cfg2.win 1).blk t).view.emb (ix2 q k)) = _
    refine congrArg (V c main_arg5 : S512x2048.Idx → EReal) (funext fun a => Fin.ext ?_)
    match a with
    | ⟨0, _⟩ => show win2_1.index t (0 : Fin 2) * 512 + 1 * q.val = ((((cfg2.win 5).blk t).view.emb (ix2 p q)) 1).val; omega
    | ⟨1, _⟩ => show win2_1.index t (1 : Fin 2) * 2048 + 1 * k.val = k.val; omega
  have h2 : iblk2 V c 2 t (ix2 0 q)
      = (V c main_v34 : S1x512.Idx → EReal) (ix2 0 ((((cfg2.win 5).blk t).view.emb (ix2 p q)) 1)) := by
    show (V c main_v34 : S1x512.Idx → EReal) (((cfg2.win 2).blk t).view.emb (ix2 0 q)) = _
    refine congrArg (V c main_v34 : S1x512.Idx → EReal) (funext fun a => Fin.ext ?_)
    match a with
    | ⟨0, _⟩ => show win2_2.index t (0 : Fin 2) * 1 + 1 * 0 = 0; omega
    | ⟨1, _⟩ => show win2_2.index t (1 : Fin 2) * 512 + 1 * q.val = ((((cfg2.win 5).blk t).view.emb (ix2 p q)) 1).val; omega
  refine congrArg₂ (· + ·) (Finset.sum_congr rfl fun k _ => ?_) h2
  exact congrArg₂ (· * ·) (congrArg₂ QuantLin.qe h3 (h0 k)) (congrArg₂ QuantLin.qe h4 (h1 k))

/-- An index of the [16384, 512] array is in point t's block iff each coordinate is in the block's range on its axis. -/
theorem mem_blk2 (t : Fin cfg2.N) (i : S16384x512.Idx) :
    i ∈ ((cfg2.win 5).blk t).view.set ↔ ∀ a : Fin 2, win2_5.index t a * S256x512.size a ≤ (i a).val ∧ (i a).val < win2_5.index t a * S256x512.size a + S256x512.size a := by
  show i ∈ ((View.whole main_v35).slice (win2_5.rect t)).set ↔ _
  rw [View.set_slice_whole, Rect.mem_set_unit]
  exact Iff.rfl

/-- The 64 x 1 output blocks cover the array: the index (r, s) lies in the block of the point with grid coordinates
    (r / 256, s / 512), which is point (r / 256) * 1 + s / 512. -/
theorem cover2 (i : S16384x512.Idx) : ∃ t : Fin cfg2.N, (cfg2.win 5).flush t = true ∧ i ∈ ((cfg2.win 5).blk t).view.set := by
  have hi0 : (i 0).val < 16384 := (i 0).isLt
  have hi1 : (i 1).val < 512 := (i 1).isLt
  have hN : cfg2.N = 64 := N_2
  have ht : (i 0).val / 256 * 1 + (i 1).val / 512 < cfg2.N := by rw [hN]; omega
  obtain ⟨-, -, -, -, -, -, -, -, -, -, a50, a51⟩ := block_index2 ⟨(i 0).val / 256 * 1 + (i 1).val / 512, ht⟩
  have q0 : win2_5.index ⟨(i 0).val / 256 * 1 + (i 1).val / 512, ht⟩ (0 : Fin 2) = (i 0).val / 256 := by
    rw [a50]; show ((i 0).val / 256 * 1 + (i 1).val / 512) / 1 = _; omega
  have q1 : win2_5.index ⟨(i 0).val / 256 * 1 + (i 1).val / 512, ht⟩ (1 : Fin 2) = (i 1).val / 512 := by
    rw [a51]; show ((i 0).val / 256 * 1 + (i 1).val / 512) % 1 = _; omega
  refine ⟨⟨(i 0).val / 256 * 1 + (i 1).val / 512, ht⟩, flush2_5 _, ?_⟩
  rw [mem_blk2]
  intro a
  match a with
  | ⟨0, _⟩ =>
    show win2_5.index ⟨(i 0).val / 256 * 1 + (i 1).val / 512, ht⟩ (0 : Fin 2) * 256 ≤ (i 0).val
      ∧ (i 0).val < win2_5.index ⟨(i 0).val / 256 * 1 + (i 1).val / 512, ht⟩ (0 : Fin 2) * 256 + 256
    omega
  | ⟨1, _⟩ =>
    show win2_5.index ⟨(i 0).val / 256 * 1 + (i 1).val / 512, ht⟩ (1 : Fin 2) * 512 ≤ (i 1).val
      ∧ (i 1).val < win2_5.index ⟨(i 0).val / 256 * 1 + (i 1).val / 512, ht⟩ (1 : Fin 2) * 512 + 512
    omega

/-- After the region its output array is one layer of the arrays the region found. -/
theorem final (c : Dev nD) :
    (dat2 (F := Ideal) V c).arrAt 5 cfg2.N
      = (QuantLin.lin (M := 16384) (K := 2048) (N := 512) ((V c main_v28 : S1x1.Idx → EReal) (ix2 0 0)) ((V c main_v33 : S1x1.Idx → EReal) (ix2 0 0))
          (V c main_v23) (V c main_arg5) (V c main_v34) : S16384x512.Idx → EReal) :=
  (dat2 (F := Ideal) V c).arrAt_eq_of_cover 5 (layer2 V c) (fun t _ => flushed_eq2 V c t) cover2

end Cert.KernelIdeal.Region2

end
-- ==== Proof.KernelChain.lean ====
/-
  The kernel program's result array as three layers of its arguments: each region's output read through the host
  operations between the regions (the scales, the bias rows) back to the launch memory.
-/
import proofs.«110473_j3513283248696_1_alg».proof.Proof.Gen.KernelIdeal.Frame
import proofs.«110473_j3513283248696_1_alg».proof.Proof.QuantSpec
import proofs.«110473_j3513283248696_1_alg».proof.Proof.Region0
import proofs.«110473_j3513283248696_1_alg».proof.Proof.Region1
import proofs.«110473_j3513283248696_1_alg».proof.Proof.Region2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen

variable (m : (ℓ : Loc nD τ sig) → Buf (Elt Ideal) ℓ) (ρ : Dev nD → PrngReg)

/-! ## Reading a reshaped scale and a reshaped bias

A scale is computed as a rank-0 tensor and reshaped to [1, 1]; a bias vector of length N is reshaped to [1, N].  A
reshape keeps the row-major position of every entry. -/

/-- The one index of a rank-0 tensor and the index (0, 0) of a [1, 1] tensor sit at the same row-major position: each
    shape has exactly one entry. -/
private theorem pos_one : (S_.rowMajor ix0).val = (S1x1.rowMajor (ix2 0 0)).val := by
  have h1 := (S_.rowMajor ix0).isLt
  have h2 := (S1x1.rowMajor (ix2 0 0)).isLt
  have e1 : S_.numel = 1 := by decide
  have e2 : S1x1.numel = 1 := by decide
  omega

/-- The scale tensor reshaped to [1, 1] and read at (0, 0) is the scale. -/
private theorem scale_read {S : Shape} {axes : List (Fin S.rank)} (hred : S.ReducesTo axes S_) (h0 : 0 < S_.numel)
    (x : FVec Ideal S .f32) (h : S_.ShapeCasts S1x1) :
    shapeCast S1x1 (QuantLin.scaleArr hred h0 x) h (ix2 0 0) = QuantLin.sc hred h0 x :=
  shapeCast_apply _ h (ix2 0 0) ix0 pos_one

/-- A vector of length N reshaped to [1, N] is the row the layer reads: entry (0, q) of the row is entry q of the vector. -/
private theorem row_read {N : Nat} (b : (⟨1, ![N]⟩ : Shape).Idx → EReal) (h : (⟨1, ![N]⟩ : Shape).ShapeCasts ⟨2, ![1, N]⟩) :
    shapeCast ⟨2, ![1, N]⟩ b h = QuantLin.row b := by
  funext j
  refine (shapeCast_apply b h j (ix1 (j 1)) ?_).trans rfl
  have h0 : (j 0).val = 0 := by have := idx2_lt0 j; omega
  rw [Shape.rowMajor_val_one, Shape.rowMajor_val_two]
  show (j 1).val = (j 0).val * N + (j 1).val
  rw [h0]; omega

/-- A layer is a function of its two scales, its two operands and its bias row. -/
private theorem lin_congr {M K N : Nat} {sx sx' sw sw' : EReal} {x x' : (⟨2, ![M, K]⟩ : Shape).Idx → EReal}
    {w w' : (⟨2, ![N, K]⟩ : Shape).Idx → EReal} {b b' : (⟨2, ![1, N]⟩ : Shape).Idx → EReal}
    (h1 : sx = sx') (h2 : sw = sw') (h3 : x = x') (h4 : w = w') (h5 : b = b') :
    QuantLin.lin sx sw x w b = QuantLin.lin sx' sw' x' w' b' := by
  subst h1 h2 h3 h4 h5; rfl

/-! ## The host operations of each stretch, over any contents W of the buffers before the stretch

Each stretch computes the scale of an activation tensor and of a weight tensor (absolute value, maximum over the whole
tensor from -inf, division by 127, maximum with eps, reshape to [1, 1]) and reshapes a bias vector to a row; it writes
fresh buffers only, so the tensors it reads are unchanged after it. -/

section Host

variable (W : Valuation τ sig (Elt Ideal))

/-- A buffer that no operation of the stretch writes holds after the stretch what it held before. -/
local macro "untouched " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### The first stretch -/

private theorem scale_v4 : (StableHlo.after (hostOps0 (F := Ideal)) W (Proc.devRef .tc main_v4) : S1x1.Idx → EReal) (ix2 0 0)
    = QuantLin.sc (S := ⟨2, ![16384, 512]⟩) (axes := [0, 1]) (by decide) (by decide) (W (Proc.devRef .tc main_arg0)) := by
  after_results
  exact scale_read _ _ _ _

private theorem scale_v9 : (StableHlo.after (hostOps0 (F := Ideal)) W (Proc.devRef .tc main_v9) : S1x1.Idx → EReal) (ix2 0 0)
    = QuantLin.sc (S := ⟨2, ![2048, 512]⟩) (axes := [0, 1]) (by decide) (by decide) (W (Proc.devRef .tc main_arg1)) := by
  after_results
  exact scale_read _ _ _ _

private theorem row_v10 : (StableHlo.after (hostOps0 (F := Ideal)) W (Proc.devRef .tc main_v10) : S1x2048.Idx → EReal)
    = QuantLin.row (N := 2048) (W (Proc.devRef .tc main_arg2)) := by
  after_results
  exact row_read _ _

private theorem h0_arg0 : StableHlo.after (hostOps0 (F := Ideal)) W (Proc.devRef .tc main_arg0) = W (Proc.devRef .tc main_arg0) := by
  untouched hostOps0
private theorem h0_arg1 : StableHlo.after (hostOps0 (F := Ideal)) W (Proc.devRef .tc main_arg1) = W (Proc.devRef .tc main_arg1) := by
  untouched hostOps0
private theorem h0_arg3 : StableHlo.after (hostOps0 (F := Ideal)) W (Proc.devRef .tc main_arg3) = W (Proc.devRef .tc main_arg3) := by
  untouched hostOps0
private theorem h0_arg4 : StableHlo.after (hostOps0 (F := Ideal)) W (Proc.devRef .tc main_arg4) = W (Proc.devRef .tc main_arg4) := by
  untouched hostOps0
private theorem h0_arg5 : StableHlo.after (hostOps0 (F := Ideal)) W (Proc.devRef .tc main_arg5) = W (Proc.devRef .tc main_arg5) := by
  untouched hostOps0
private theorem h0_arg6 : StableHlo.after (hostOps0 (F := Ideal)) W (Proc.devRef .tc main_arg6) = W (Proc.devRef .tc main_arg6) := by
  untouched hostOps0

/-! ### The second stretch -/

private theorem scale_v16 : (StableHlo.after (hostOps1 (F := Ideal)) W (Proc.devRef .tc main_v16) : S1x1.Idx → EReal) (ix2 0 0)
    = QuantLin.sc (S := ⟨2, ![16384, 2048]⟩) (axes := [0, 1]) (by decide) (by decide) (W (Proc.devRef .tc main_v11)) := by
  after_results
  exact scale_read _ _ _ _

private theorem scale_v21 : (StableHlo.after (hostOps1 (F := Ideal)) W (Proc.devRef .tc main_v21) : S1x1.Idx → EReal) (ix2 0 0)
    = QuantLin.sc (S := ⟨2, ![2048, 2048]⟩) (axes := [0, 1]) (by decide) (by decide) (W (Proc.devRef .tc main_arg3)) := by
  after_results
  exact scale_read _ _ _ _

private theorem row_v22 : (StableHlo.after (hostOps1 (F := Ideal)) W (Proc.devRef .tc main_v22) : S1x2048.Idx → EReal)
    = QuantLin.row (N := 2048) (W (Proc.devRef .tc main_arg4)) := by
  after_results
  exact row_read _ _

private theorem h1_v11 : StableHlo.after (hostOps1 (F := Ideal)) W (Proc.devRef .tc main_v11) = W (Proc.devRef .tc main_v11) := by
  untouched hostOps1
private theorem h1_arg3 : StableHlo.after (hostOps1 (F := Ideal)) W (Proc.devRef .tc main_arg3) = W (Proc.devRef .tc main_arg3) := by
  untouched hostOps1
private theorem h1_arg5 : StableHlo.after (hostOps1 (F := Ideal)) W (Proc.devRef .tc main_arg5) = W (Proc.devRef .tc main_arg5) := by
  untouched hostOps1
private theorem h1_arg6 : StableHlo.after (hostOps1 (F := Ideal)) W (Proc.devRef .tc main_arg6) = W (Proc.devRef .tc main_arg6) := by
  untouched hostOps1

/-! ### The third stretch -/

private theorem scale_v28 : (StableHlo.after (hostOps2 (F := Ideal)) W (Proc.devRef .tc main_v28) : S1x1.Idx → EReal) (ix2 0 0)
    = QuantLin.sc (S := ⟨2, ![16384, 2048]⟩) (axes := [0, 1]) (by decide) (by decide) (W (Proc.devRef .tc main_v23)) := by
  after_results
  exact scale_read _ _ _ _

private theorem scale_v33 : (StableHlo.after (hostOps2 (F := Ideal)) W (Proc.devRef .tc main_v33) : S1x1.Idx → EReal) (ix2 0 0)
    = QuantLin.sc (S := ⟨2, ![512, 2048]⟩) (axes := [0, 1]) (by decide) (by decide) (W (Proc.devRef .tc main_arg5)) := by
  after_results
  exact scale_read _ _ _ _

private theorem row_v34 : (StableHlo.after (hostOps2 (F := Ideal)) W (Proc.devRef .tc main_v34) : S1x512.Idx → EReal)
    = QuantLin.row (N := 512) (W (Proc.devRef .tc main_arg6)) := by
  after_results
  exact row_read _ _

private theorem h2_v23 : StableHlo.after (hostOps2 (F := Ideal)) W (Proc.devRef .tc main_v23) = W (Proc.devRef .tc main_v23) := by
  untouched hostOps2
private theorem h2_arg5 : StableHlo.after (hostOps2 (F := Ideal)) W (Proc.devRef .tc main_arg5) = W (Proc.devRef .tc main_arg5) := by
  untouched hostOps2

end Host

/-! ## The launch arguments and the first two layers -/

/-- The launch arguments of core c, at their tensor types. -/
private abbrev A0 (c : Dev nD) : S16384x512.Idx → EReal := m ((c.tc : Thread nD τ).loc main_arg0)
private abbrev A1 (c : Dev nD) : S2048x512.Idx → EReal := m ((c.tc : Thread nD τ).loc main_arg1)
private abbrev A2 (c : Dev nD) : S2048.Idx → EReal := m ((c.tc : Thread nD τ).loc main_arg2)
private abbrev A3 (c : Dev nD) : S2048x2048.Idx → EReal := m ((c.tc : Thread nD τ).loc main_arg3)
private abbrev A4 (c : Dev nD) : S2048.Idx → EReal := m ((c.tc : Thread nD τ).loc main_arg4)
private abbrev A5 (c : Dev nD) : S512x2048.Idx → EReal := m ((c.tc : Thread nD τ).loc main_arg5)
private abbrev A6 (c : Dev nD) : S512.Idx → EReal := m ((c.tc : Thread nD τ).loc main_arg6)

/-- The first layer of the launch arguments. -/
private def Y1 (c : Dev nD) : S16384x2048.Idx → EReal :=
  QuantLin.lin (M := 16384) (K := 512) (N := 2048)
    (QuantLin.sc (S := ⟨2, ![16384, 512]⟩) (axes := [0, 1]) (by decide) (by decide) (A0 m c))
    (QuantLin.sc (S := ⟨2, ![2048, 512]⟩) (axes := [0, 1]) (by decide) (by decide) (A1 m c))
    (A0 m c) (A1 m c) (QuantLin.row (A2 m c))

/-- The second layer: of the first layer's result. -/
private def Y2 (c : Dev nD) : S16384x2048.Idx → EReal :=
  QuantLin.lin (M := 16384) (K := 2048) (N := 2048)
    (QuantLin.sc (S := ⟨2, ![16384, 2048]⟩) (axes := [0, 1]) (by decide) (by decide) (Y1 m c))
    (QuantLin.sc (S := ⟨2, ![2048, 2048]⟩) (axes := [0, 1]) (by decide) (by decide) (A3 m c))
    (Y1 m c) (A3 m c) (QuantLin.row (A4 m c))

/-! ## At the first region's entry: the arguments as launched -/

private theorem W1_arg0 (c : Dev nD) : W1 (F := Ideal) m ρ c (Proc.devRef .tc main_arg0) = A0 m c := h0_arg0 (W0 m ρ c)
private theorem W1_arg1 (c : Dev nD) : W1 (F := Ideal) m ρ c (Proc.devRef .tc main_arg1) = A1 m c := h0_arg1 (W0 m ρ c)
private theorem W1_arg3 (c : Dev nD) : W1 (F := Ideal) m ρ c (Proc.devRef .tc main_arg3) = A3 m c := h0_arg3 (W0 m ρ c)
private theorem W1_arg4 (c : Dev nD) : W1 (F := Ideal) m ρ c (Proc.devRef .tc main_arg4) = A4 m c := h0_arg4 (W0 m ρ c)
private theorem W1_arg5 (c : Dev nD) : W1 (F := Ideal) m ρ c (Proc.devRef .tc main_arg5) = A5 m c := h0_arg5 (W0 m ρ c)
private theorem W1_arg6 (c : Dev nD) : W1 (F := Ideal) m ρ c (Proc.devRef .tc main_arg6) = A6 m c := h0_arg6 (W0 m ρ c)

/-! ## At the first region's exit: its result is the first layer; the later arguments are not its arrays -/

private theorem W2_v11 (c : Dev nD) : (W2 (F := Ideal) m ρ c (Proc.devRef .tc main_v11) : S16384x2048.Idx → EReal) = Y1 m c := by
  unfold Y1
  exact (W2_arr m ρ c 5).trans ((Region0.final (V1 m ρ) c).trans
    (lin_congr (scale_v4 (W0 m ρ c)) (scale_v9 (W0 m ρ c)) (W1_arg0 m ρ c) (W1_arg1 m ρ c) (row_v10 (W0 m ρ c))))

private theorem W2_arg3 (c : Dev nD) : W2 (F := Ideal) m ρ c (Proc.devRef .tc main_arg3) = A3 m c :=
  (W2_of_ne m ρ c main_arg3 (by decide)).trans (W1_arg3 m ρ c)
private theorem W2_arg4 (c : Dev nD) : W2 (F := Ideal) m ρ c (Proc.devRef .tc main_arg4) = A4 m c :=
  (W2_of_ne m ρ c main_arg4 (by decide)).trans (W1_arg4 m ρ c)
private theorem W2_arg5 (c : Dev nD) : W2 (F := Ideal) m ρ c (Proc.devRef .tc main_arg5) = A5 m c :=
  (W2_of_ne m ρ c main_arg5 (by decide)).trans (W1_arg5 m ρ c)
private theorem W2_arg6 (c : Dev nD) : W2 (F := Ideal) m ρ c (Proc.devRef .tc main_arg6) = A6 m c :=
  (W2_of_ne m ρ c main_arg6 (by decide)).trans (W1_arg6 m ρ c)

/-! ## At the second region's entry -/

private theorem W3_v16 (c : Dev nD) : (W3 (F := Ideal) m ρ c (Proc.devRef .tc main_v16) : S1x1.Idx → EReal) (ix2 0 0)
    = QuantLin.sc (S := ⟨2, ![16384, 2048]⟩) (axes := [0, 1]) (by decide) (by decide) (Y1 m c) :=
  (scale_v16 (W2 m ρ c)).trans
    (congrArg (QuantLin.sc (S := ⟨2, ![16384, 2048]⟩) (axes := [0, 1]) (by decide) (by decide)) (W2_v11 m ρ c))
private theorem W3_v21 (c : Dev nD) : (W3 (F := Ideal) m ρ c (Proc.devRef .tc main_v21) : S1x1.Idx → EReal) (ix2 0 0)
    = QuantLin.sc (S := ⟨2, ![2048, 2048]⟩) (axes := [0, 1]) (by decide) (by decide) (A3 m c) :=
  (scale_v21 (W2 m ρ c)).trans
    (congrArg (QuantLin.sc (S := ⟨2, ![2048, 2048]⟩) (axes := [0, 1]) (by decide) (by decide)) (W2_arg3 m ρ c))
private theorem W3_v22 (c : Dev nD) : (W3 (F := Ideal) m ρ c (Proc.devRef .tc main_v22) : S1x2048.Idx → EReal)
    = QuantLin.row (A4 m c) :=
  (row_v22 (W2 m ρ c)).trans (congrArg (QuantLin.row (N := 2048)) (W2_arg4 m ρ c))
private theorem W3_v11 (c : Dev nD) : (W3 (F := Ideal) m ρ c (Proc.devRef .tc main_v11) : S16384x2048.Idx → EReal) = Y1 m c :=
  (h1_v11 (W2 m ρ c)).trans (W2_v11 m ρ c)
private theorem W3_arg3 (c : Dev nD) : W3 (F := Ideal) m ρ c (Proc.devRef .tc main_arg3) = A3 m c :=
  (h1_arg3 (W2 m ρ c)).trans (W2_arg3 m ρ c)
private theorem W3_arg5 (c : Dev nD) : W3 (F := Ideal) m ρ c (Proc.devRef .tc main_arg5) = A5 m c :=
  (h1_arg5 (W2 m ρ c)).trans (W2_arg5 m ρ c)
private theorem W3_arg6 (c : Dev nD) : W3 (F := Ideal) m ρ c (Proc.devRef .tc main_arg6) = A6 m c :=
  (h1_arg6 (W2 m ρ c)).trans (W2_arg6 m ρ c)

/-! ## At the second region's exit: its result is the second layer -/

private theorem W4_v23 (c : Dev nD) : (W4 (F := Ideal) m ρ c (Proc.devRef .tc main_v23) : S16384x2048.Idx → EReal) = Y2 m c := by
  unfold Y2
  exact (W4_arr m ρ c 5).trans ((Region1.final (V3 m ρ) c).trans
    (lin_congr (W3_v16 m ρ c) (W3_v21 m ρ c) (W3_v11 m ρ c) (W3_arg3 m ρ c) (W3_v22 m ρ c)))

private theorem W4_arg5 (c : Dev nD) : W4 (F := Ideal) m ρ c (Proc.devRef .tc main_arg5) = A5 m c :=
  (W4_of_ne m ρ c main_arg5 (by decide)).trans (W3_arg5 m ρ c)
private theorem W4_arg6 (c : Dev nD) : W4 (F := Ideal) m ρ c (Proc.devRef .tc main_arg6) = A6 m c :=
  (W4_of_ne m ρ c main_arg6 (by decide)).trans (W3_arg6 m ρ c)

/-! ## At the third region's entry -/

private theorem W5_v28 (c : Dev nD) : (W5 (F := Ideal) m ρ c (Proc.devRef .tc main_v28) : S1x1.Idx → EReal) (ix2 0 0)
    = QuantLin.sc (S := ⟨2, ![16384, 2048]⟩) (axes := [0, 1]) (by decide) (by decide) (Y2 m c) :=
  (scale_v28 (W4 m ρ c)).trans
    (congrArg (QuantLin.sc (S := ⟨2, ![16384, 2048]⟩) (axes := [0, 1]) (by decide) (by decide)) (W4_v23 m ρ c))
private theorem W5_v33 (c : Dev nD) : (W5 (F := Ideal) m ρ c (Proc.devRef .tc main_v33) : S1x1.Idx → EReal) (ix2 0 0)
    = QuantLin.sc (S := ⟨2, ![512, 2048]⟩) (axes := [0, 1]) (by decide) (by decide) (A5 m c) :=
  (scale_v33 (W4 m ρ c)).trans
    (congrArg (QuantLin.sc (S := ⟨2, ![512, 2048]⟩) (axes := [0, 1]) (by decide) (by decide)) (W4_arg5 m ρ c))
private theorem W5_v34 (c : Dev nD) : (W5 (F := Ideal) m ρ c (Proc.devRef .tc main_v34) : S1x512.Idx → EReal)
    = QuantLin.row (A6 m c) :=
  (row_v34 (W4 m ρ c)).trans (congrArg (QuantLin.row (N := 512)) (W4_arg6 m ρ c))
private theorem W5_v23 (c : Dev nD) : (W5 (F := Ideal) m ρ c (Proc.devRef .tc main_v23) : S16384x2048.Idx → EReal) = Y2 m c :=
  (h2_v23 (W4 m ρ c)).trans (W4_v23 m ρ c)
private theorem W5_arg5 (c : Dev nD) : W5 (F := Ideal) m ρ c (Proc.devRef .tc main_arg5) = A5 m c :=
  (h2_arg5 (W4 m ρ c)).trans (W4_arg5 m ρ c)

/-! ## The result -/

/-- The contents of the result array at the last boundary are the three layers of the launch arguments. -/
theorem out_eq (c : Dev nD) :
    (W6 (F := Ideal) m ρ c (Proc.devRef .tc main_v35) : S16384x512.Idx → EReal)
      = QuantLin.G3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 5).trans ((Region2.final (V5 m ρ) c).trans ?_)
  refine (lin_congr (W5_v28 m ρ c) (W5_v33 m ρ c) (W5_v23 m ρ c) (W5_arg5 m ρ c) (W5_v34 m ρ c)).trans ?_
  unfold QuantLin.G3 Y2 Y1
  rfl

end Cert.KernelIdeal.Chain

end
-- ==== Proof.RefValue.lean ====
/-
  The reference's result as three layers of its arguments.  The reference spells each quantised tensor t + (Q(t) - t);
  for real-valued t that is Q(t), and the layers' outputs are real again, so the three layers collapse to the same
  function the kernel computes.
-/
import proofs.«110473_j3513283248696_1_alg».proof.Proof.Gen.ReferenceIdeal.Run
import proofs.«110473_j3513283248696_1_alg».proof.Proof.Gen.ReferenceIdeal.Read
import proofs.«110473_j3513283248696_1_alg».proof.Proof.QuantSpec
import proofs.«110473_j3513283248696_1_alg».proof.Proof.LibDotNT
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen

open Cert.ReferenceIdeal.Read

/-! ## One entry of a quantised tensor -/

/-- The chain of elementwise operations the reference runs on one entry t at the scale s is t + (Q(t) - t). -/
private theorem fq_elt (t s : EReal) :
    FloatOps.addf (F := Ideal) (φ := .f32) t (FloatOps.subf (FloatOps.mulf (FloatOps.minimumf (FloatOps.ofBits .f32 0x42FE0000#32)
      (FloatOps.maximumf (FloatOps.ofBits .f32 0xC3000000#32) (FloatOps.hostUnary .roundeven (FloatOps.hostDivf t s)))) s) t)
      = t + (QuantLin.qe s t - t) := rfl

/-! ## The six quantised tensors

Each is read entry by entry through its operations: add, subtract, multiply by the broadcast scale, clip (a minimum
with 127 over a maximum with -128, both broadcast constants), round, divide by the broadcast scale.  The scale itself
stays the one term the specification names: the maximum of |t| (a reduction from -inf) over 127, at least eps. -/

/-- The first layer's input, as the reference spells it: t + (Q(t) - t) at the scale of t. -/
private theorem fq11 (x0 : S16384x512.Idx → EReal) (i : S16384x512.Idx) :
    val_main_v11 (F := Ideal) x0 i = (x0) i + (QuantLin.qe (QuantLin.sc (S := ⟨2, ![16384, 512]⟩) (axes := [0, 1]) (by decide) (by decide) (x0)) ((x0) i) - (x0) i) := by
  rw [val_main_v11_apply, val_main_v10_apply, val_main_v9_apply, val_main_v8_apply, val_main_v7_apply, val_main_call1_v4_apply, val_main_call1_v3_apply, val_main_cst_3_apply, val_main_call1_v2_apply, val_main_call1_v1_apply, val_main_call1_v0_apply, val_main_cst_2_apply, val_main_v6_apply, val_main_v5_apply, val_main_v4_apply]
  exact fq_elt _ _

/-- On a real tensor that is Q(t). -/
private theorem fqA11 (x0 : S16384x512.Idx → EReal) (h : ∀ i, QuantLin.IsFin ((x0) i)) (i : S16384x512.Idx) :
    val_main_v11 (F := Ideal) x0 i = QuantLin.qe (QuantLin.sc (S := ⟨2, ![16384, 512]⟩) (axes := [0, 1]) (by decide) (by decide) (x0)) ((x0) i) := by
  rw [fq11]
  exact QuantLin.add_sub_cancel_fin (h i) (QuantLin.qe_fin (QuantLin.sc_fin _ _ _ h) _)

/-- The first layer's weights, as the reference spells it: t + (Q(t) - t) at the scale of t. -/
private theorem fq23 (x1 : S2048x512.Idx → EReal) (i : S2048x512.Idx) :
    val_main_v23 (F := Ideal) x1 i = (x1) i + (QuantLin.qe (QuantLin.sc (S := ⟨2, ![2048, 512]⟩) (axes := [0, 1]) (by decide) (by decide) (x1)) ((x1) i) - (x1) i) := by
  rw [val_main_v23_apply, val_main_v22_apply, val_main_v21_apply, val_main_v20_apply, val_main_v19_apply, val_main_call3_v4_apply, val_main_call3_v3_apply, val_main_cst_8_apply, val_main_call3_v2_apply, val_main_call3_v1_apply, val_main_call3_v0_apply, val_main_cst_7_apply, val_main_v18_apply, val_main_v17_apply, val_main_v16_apply]
  exact fq_elt _ _

/-- On a real tensor that is Q(t). -/
private theorem fqA23 (x1 : S2048x512.Idx → EReal) (h : ∀ i, QuantLin.IsFin ((x1) i)) (i : S2048x512.Idx) :
    val_main_v23 (F := Ideal) x1 i = QuantLin.qe (QuantLin.sc (S := ⟨2, ![2048, 512]⟩) (axes := [0, 1]) (by decide) (by decide) (x1)) ((x1) i) := by
  rw [fq23]
  exact QuantLin.add_sub_cancel_fin (h i) (QuantLin.qe_fin (QuantLin.sc_fin _ _ _ h) _)

/-- The first layer's output, as the reference spells it: t + (Q(t) - t) at the scale of t. -/
private theorem fq39 (x0 : S16384x512.Idx → EReal) (x1 : S2048x512.Idx → EReal) (x2 : S2048.Idx → EReal) (i : S16384x2048.Idx) :
    val_main_v39 (F := Ideal) x0 x1 x2 i = (val_main_v27 (F := Ideal) x0 x1 x2) i + (QuantLin.qe (QuantLin.sc (S := ⟨2, ![16384, 2048]⟩) (axes := [0, 1]) (by decide) (by decide) (val_main_v27 (F := Ideal) x0 x1 x2)) ((val_main_v27 (F := Ideal) x0 x1 x2) i) - (val_main_v27 (F := Ideal) x0 x1 x2) i) := by
  rw [val_main_v39_apply, val_main_v38_apply, val_main_v37_apply, val_main_v36_apply, val_main_v35_apply, val_main_call5_v4_apply, val_main_call5_v3_apply, val_main_cst_13_apply, val_main_call5_v2_apply, val_main_call5_v1_apply, val_main_call5_v0_apply, val_main_cst_12_apply, val_main_v34_apply, val_main_v33_apply, val_main_v32_apply]
  exact fq_elt _ _

/-- On a real tensor that is Q(t). -/
private theorem fqA39 (x0 : S16384x512.Idx → EReal) (x1 : S2048x512.Idx → EReal) (x2 : S2048.Idx → EReal) (h : ∀ i, QuantLin.IsFin ((val_main_v27 (F := Ideal) x0 x1 x2) i)) (i : S16384x2048.Idx) :
    val_main_v39 (F := Ideal) x0 x1 x2 i = QuantLin.qe (QuantLin.sc (S := ⟨2, ![16384, 2048]⟩) (axes := [0, 1]) (by decide) (by decide) (val_main_v27 (F := Ideal) x0 x1 x2)) ((val_main_v27 (F := Ideal) x0 x1 x2) i) := by
  rw [fq39]
  exact QuantLin.add_sub_cancel_fin (h i) (QuantLin.qe_fin (QuantLin.sc_fin _ _ _ h) _)

/-- The second layer's weights, as the reference spells it: t + (Q(t) - t) at the scale of t. -/
private theorem fq51 (x3 : S2048x2048.Idx → EReal) (i : S2048x2048.Idx) :
    val_main_v51 (F := Ideal) x3 i = (x3) i + (QuantLin.qe (QuantLin.sc (S := ⟨2, ![2048, 2048]⟩) (axes := [0, 1]) (by decide) (by decide) (x3)) ((x3) i) - (x3) i) := by
  rw [val_main_v51_apply, val_main_v50_apply, val_main_v49_apply, val_main_v48_apply, val_main_v47_apply, val_main_call7_v4_apply, val_main_call7_v3_apply, val_main_cst_18_apply, val_main_call7_v2_apply, val_main_call7_v1_apply, val_main_call7_v0_apply, val_main_cst_17_apply, val_main_v46_apply, val_main_v45_apply, val_main_v44_apply]
  exact fq_elt _ _

/-- On a real tensor that is Q(t). -/
private theorem fqA51 (x3 : S2048x2048.Idx → EReal) (h : ∀ i, QuantLin.IsFin ((x3) i)) (i : S2048x2048.Idx) :
    val_main_v51 (F := Ideal) x3 i = QuantLin.qe (QuantLin.sc (S := ⟨2, ![2048, 2048]⟩) (axes := [0, 1]) (by decide) (by decide) (x3)) ((x3) i) := by
  rw [fq51]
  exact QuantLin.add_sub_cancel_fin (h i) (QuantLin.qe_fin (QuantLin.sc_fin _ _ _ h) _)

/-- The second layer's output, as the reference spells it: t + (Q(t) - t) at the scale of t. -/
private theorem fq67 (x0 : S16384x512.Idx → EReal) (x1 : S2048x512.Idx → EReal) (x2 : S2048.Idx → EReal) (x3 : S2048x2048.Idx → EReal) (x4 : S2048.Idx → EReal) (i : S16384x2048.Idx) :
    val_main_v67 (F := Ideal) x0 x1 x2 x3 x4 i = (val_main_v55 (F := Ideal) x0 x1 x2 x3 x4) i + (QuantLin.qe (QuantLin.sc (S := ⟨2, ![16384, 2048]⟩) (axes := [0, 1]) (by decide) (by decide) (val_main_v55 (F := Ideal) x0 x1 x2 x3 x4)) ((val_main_v55 (F := Ideal) x0 x1 x2 x3 x4) i) - (val_main_v55 (F := Ideal) x0 x1 x2 x3 x4) i) := by
  rw [val_main_v67_apply, val_main_v66_apply, val_main_v65_apply, val_main_v64_apply, val_main_v63_apply, val_main_call9_v4_apply, val_main_call9_v3_apply, val_main_cst_23_apply, val_main_call9_v2_apply, val_main_call9_v1_apply, val_main_call9_v0_apply, val_main_cst_22_apply, val_main_v62_apply, val_main_v61_apply, val_main_v60_apply]
  exact fq_elt _ _

/-- On a real tensor that is Q(t). -/
private theorem fqA67 (x0 : S16384x512.Idx → EReal) (x1 : S2048x512.Idx → EReal) (x2 : S2048.Idx → EReal) (x3 : S2048x2048.Idx → EReal) (x4 : S2048.Idx → EReal) (h : ∀ i, QuantLin.IsFin ((val_main_v55 (F := Ideal) x0 x1 x2 x3 x4) i)) (i : S16384x2048.Idx) :
    val_main_v67 (F := Ideal) x0 x1 x2 x3 x4 i = QuantLin.qe (QuantLin.sc (S := ⟨2, ![16384, 2048]⟩) (axes := [0, 1]) (by decide) (by decide) (val_main_v55 (F := Ideal) x0 x1 x2 x3 x4)) ((val_main_v55 (F := Ideal) x0 x1 x2 x3 x4) i) := by
  rw [fq67]
  exact QuantLin.add_sub_cancel_fin (h i) (QuantLin.qe_fin (QuantLin.sc_fin _ _ _ h) _)

/-- The third layer's weights, as the reference spells it: t + (Q(t) - t) at the scale of t. -/
private theorem fq79 (x5 : S512x2048.Idx → EReal) (i : S512x2048.Idx) :
    val_main_v79 (F := Ideal) x5 i = (x5) i + (QuantLin.qe (QuantLin.sc (S := ⟨2, ![512, 2048]⟩) (axes := [0, 1]) (by decide) (by decide) (x5)) ((x5) i) - (x5) i) := by
  rw [val_main_v79_apply, val_main_v78_apply, val_main_v77_apply, val_main_v76_apply, val_main_v75_apply, val_main_call11_v4_apply, val_main_call11_v3_apply, val_main_cst_28_apply, val_main_call11_v2_apply, val_main_call11_v1_apply, val_main_call11_v0_apply, val_main_cst_27_apply, val_main_v74_apply, val_main_v73_apply, val_main_v72_apply]
  exact fq_elt _ _

/-- On a real tensor that is Q(t). -/
private theorem fqA79 (x5 : S512x2048.Idx → EReal) (h : ∀ i, QuantLin.IsFin ((x5) i)) (i : S512x2048.Idx) :
    val_main_v79 (F := Ideal) x5 i = QuantLin.qe (QuantLin.sc (S := ⟨2, ![512, 2048]⟩) (axes := [0, 1]) (by decide) (by decide) (x5)) ((x5) i) := by
  rw [fq79]
  exact QuantLin.add_sub_cancel_fin (h i) (QuantLin.qe_fin (QuantLin.sc_fin _ _ _ h) _)

/-! ## The three layers

A layer's entry (p, q) is the contraction's sum over k of the left tensor at (p, k) times the right tensor at (q, k),
plus the bias, which reaches (p, q) through two broadcasts: [N] to [1, N], then to [M, N], reading entry q. -/

/-- The first layer: the reference's product of the two quantised tensors plus the broadcast bias row is the specification's layer. -/
private theorem layer1 (x0 : S16384x512.Idx → EReal) (x1 : S2048x512.Idx → EReal) (x2 : S2048.Idx → EReal)
    (hL : ∀ i, QuantLin.IsFin ((x0) i)) (hR : ∀ i, QuantLin.IsFin (x1 i)) :
    val_main_v27 (F := Ideal) x0 x1 x2
      = QuantLin.lin (M := 16384) (K := 512) (N := 2048) (QuantLin.sc (S := ⟨2, ![16384, 512]⟩) (axes := [0, 1]) (by decide) (by decide) (x0)) (QuantLin.sc (S := ⟨2, ![2048, 512]⟩) (axes := [0, 1]) (by decide) (by decide) (x1))
          (x0) x1 (QuantLin.row x2) := by
  funext i
  -- the contraction reads the left tensor at (p, k) and the right tensor at (q, k); the bias is read at q
  have hl : ∀ k : Fin 512, lidx_main_v24 i k = ix2 (n0 := 16384) (n1 := 512) (i 0) k :=
    fun k => funext fun a => match a with | ⟨0, _⟩ => rfl | ⟨1, _⟩ => rfl
  have hr : ∀ k : Fin 512, ridx_main_v24 i k = ix2 (n0 := 2048) (n1 := 512) (i 1) k :=
    fun k => funext fun a => match a with | ⟨0, _⟩ => rfl | ⟨1, _⟩ => rfl
  have hb : idx_main_v25 (idx_main_v26 i) = ix1 (n := 2048) (i 1) := funext fun a => match a with | ⟨0, _⟩ => rfl
  rw [val_main_v27_apply, val_main_v24_apply, val_main_v26_apply, val_main_v25_apply, hb]
  simp only [hl, hr, fqA11 x0 hL, fqA23 x1 hR]
  rfl

/-- The second layer, over the first layer's output as a real tensor. -/
private theorem layer2 (x0 : S16384x512.Idx → EReal) (x1 : S2048x512.Idx → EReal) (x2 : S2048.Idx → EReal) (x3 : S2048x2048.Idx → EReal) (x4 : S2048.Idx → EReal)
    (hL : ∀ i, QuantLin.IsFin ((val_main_v27 (F := Ideal) x0 x1 x2) i)) (hR : ∀ i, QuantLin.IsFin (x3 i)) :
    val_main_v55 (F := Ideal) x0 x1 x2 x3 x4
      = QuantLin.lin (M := 16384) (K := 2048) (N := 2048) (QuantLin.sc (S := ⟨2, ![16384, 2048]⟩) (axes := [0, 1]) (by decide) (by decide) (val_main_v27 (F := Ideal) x0 x1 x2)) (QuantLin.sc (S := ⟨2, ![2048, 2048]⟩) (axes := [0, 1]) (by decide) (by decide) (x3))
          (val_main_v27 (F := Ideal) x0 x1 x2) x3 (QuantLin.row x4) := by
  funext i
  -- the contraction reads the left tensor at (p, k) and the right tensor at (q, k); the bias is read at q
  have hl : ∀ k : Fin 2048, lidx_main_v52 i k = ix2 (n0 := 16384) (n1 := 2048) (i 0) k :=
    fun k => funext fun a => match a with | ⟨0, _⟩ => rfl | ⟨1, _⟩ => rfl
  have hr : ∀ k : Fin 2048, ridx_main_v52 i k = ix2 (n0 := 2048) (n1 := 2048) (i 1) k :=
    fun k => funext fun a => match a with | ⟨0, _⟩ => rfl | ⟨1, _⟩ => rfl
  have hb : idx_main_v53 (idx_main_v54 i) = ix1 (n := 2048) (i 1) := funext fun a => match a with | ⟨0, _⟩ => rfl
  rw [val_main_v55_apply, val_main_v52_apply, val_main_v54_apply, val_main_v53_apply, hb]
  simp only [hl, hr, fqA39 x0 x1 x2 hL, fqA51 x3 hR]
  rfl

/-- The third layer, over the second layer's output as a real tensor. -/
private theorem layer3 (x0 : S16384x512.Idx → EReal) (x1 : S2048x512.Idx → EReal) (x2 : S2048.Idx → EReal) (x3 : S2048x2048.Idx → EReal) (x4 : S2048.Idx → EReal) (x5 : S512x2048.Idx → EReal) (x6 : S512.Idx → EReal)
    (hL : ∀ i, QuantLin.IsFin ((val_main_v55 (F := Ideal) x0 x1 x2 x3 x4) i)) (hR : ∀ i, QuantLin.IsFin (x5 i)) :
    val_main_v83 (F := Ideal) x0 x1 x2 x3 x4 x5 x6
      = QuantLin.lin (M := 16384) (K := 2048) (N := 512) (QuantLin.sc (S := ⟨2, ![16384, 2048]⟩) (axes := [0, 1]) (by decide) (by decide) (val_main_v55 (F := Ideal) x0 x1 x2 x3 x4)) (QuantLin.sc (S := ⟨2, ![512, 2048]⟩) (axes := [0, 1]) (by decide) (by decide) (x5))
          (val_main_v55 (F := Ideal) x0 x1 x2 x3 x4) x5 (QuantLin.row x6) := by
  funext i
  -- the contraction reads the left tensor at (p, k) and the right tensor at (q, k); the bias is read at q
  have hl : ∀ k : Fin 2048, lidx_main_v80 i k = ix2 (n0 := 16384) (n1 := 2048) (i 0) k :=
    fun k => funext fun a => match a with | ⟨0, _⟩ => rfl | ⟨1, _⟩ => rfl
  have hr : ∀ k : Fin 2048, ridx_main_v80 i k = ix2 (n0 := 512) (n1 := 2048) (i 1) k :=
    fun k => funext fun a => match a with | ⟨0, _⟩ => rfl | ⟨1, _⟩ => rfl
  have hb : idx_main_v81 (idx_main_v82 i) = ix1 (n := 512) (i 1) := funext fun a => match a with | ⟨0, _⟩ => rfl
  rw [val_main_v83_apply, val_main_v80_apply, val_main_v82_apply, val_main_v81_apply, hb]
  simp only [hl, hr, fqA67 x0 x1 x2 x3 x4 hL, fqA79 x5 hR]
  rfl
/-! ## The result -/

/-- On real arrays the last stage is the three layers: each layer's output is real again, which is what the next
    layer's quantised input needs. -/
private theorem three_layers (x0 : S16384x512.Idx → EReal) (x1 : S2048x512.Idx → EReal) (x2 : S2048.Idx → EReal) (x3 : S2048x2048.Idx → EReal) (x4 : S2048.Idx → EReal) (x5 : S512x2048.Idx → EReal) (x6 : S512.Idx → EReal)
    (h0 : ∀ i, QuantLin.IsFin (x0 i)) (h1 : ∀ i, QuantLin.IsFin (x1 i)) (h2 : ∀ i, QuantLin.IsFin (x2 i))
    (h3 : ∀ i, QuantLin.IsFin (x3 i)) (h4 : ∀ i, QuantLin.IsFin (x4 i)) (h5 : ∀ i, QuantLin.IsFin (x5 i))
    (h6 : ∀ i, QuantLin.IsFin (x6 i)) :
    val_main_v83 (F := Ideal) x0 x1 x2 x3 x4 x5 x6 = QuantLin.G3 x0 x1 x2 x3 x4 x5 x6 := by
  have e1 := layer1 x0 x1 x2 h0 h1
  have f1 : ∀ i, QuantLin.IsFin (val_main_v27 (F := Ideal) x0 x1 x2 i) := by
    intro i
    rw [e1]
    exact QuantLin.lin_fin (QuantLin.sc_fin _ _ _ h0) (QuantLin.sc_fin _ _ _ h1) _ _ _ (fun j => h2 _) i
  have e2 := layer2 x0 x1 x2 x3 x4 f1 h3
  have f2 : ∀ i, QuantLin.IsFin (val_main_v55 (F := Ideal) x0 x1 x2 x3 x4 i) := by
    intro i
    rw [e2]
    exact QuantLin.lin_fin (QuantLin.sc_fin _ _ _ f1) (QuantLin.sc_fin _ _ _ h3) _ _ _ (fun j => h4 _) i
  have e3 := layer3 x0 x1 x2 x3 x4 x5 x6 f2 h5
  rw [e3, e2, e1]
  rfl

variable (m : (ℓ : Loc nD τ sig) → Buf (Elt Ideal) ℓ)

/-- On real-valued arguments the reference's result is the three layers. -/
theorem ref_eq (c : Dev nD)
    (h0 : ∀ i : S16384x512.Idx, QuantLin.IsFin ((m ((c.tc : Thread nD τ).loc main_arg0) : S16384x512.Idx → EReal) i))
    (h1 : ∀ i : S2048x512.Idx, QuantLin.IsFin ((m ((c.tc : Thread nD τ).loc main_arg1) : S2048x512.Idx → EReal) i))
    (h2 : ∀ i : S2048.Idx, QuantLin.IsFin ((m ((c.tc : Thread nD τ).loc main_arg2) : S2048.Idx → EReal) i))
    (h3 : ∀ i : S2048x2048.Idx, QuantLin.IsFin ((m ((c.tc : Thread nD τ).loc main_arg3) : S2048x2048.Idx → EReal) i))
    (h4 : ∀ i : S2048.Idx, QuantLin.IsFin ((m ((c.tc : Thread nD τ).loc main_arg4) : S2048.Idx → EReal) i))
    (h5 : ∀ i : S512x2048.Idx, QuantLin.IsFin ((m ((c.tc : Thread nD τ).loc main_arg5) : S512x2048.Idx → EReal) i))
    (h6 : ∀ i : S512.Idx, QuantLin.IsFin ((m ((c.tc : Thread nD τ).loc main_arg6) : S512.Idx → EReal) i)) :
    (Cert.ReferenceIdeal.Value.res_out0 (F := Ideal) m c : S16384x512.Idx → EReal)
      = QuantLin.G3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  -- the run's result term is the last stage, read on the seven argument arrays
  show Cert.ReferenceIdeal.Value.res_main_v83 m c = _
  rw [val_main_v83_eq]
  exact three_layers _ _ _ _ _ _ _ h0 h1 h2 h3 h4 h5 h6

end Cert.ReferenceIdeal.RefValue

end
-- ==== Proof.PreFinite.lean ====
/-
  The precondition read back: every entry of every float argument is a real number.
  The precondition is the conjunction, argument by argument, of "all |entry| < +inf"; an extended real whose absolute
  value max (a, -a) is below top is neither top nor bottom.
-/
import proofs.«110473_j3513283248696_1_alg».proof.Proof.Gen.Pre_finite_inputs
import proofs.«110473_j3513283248696_1_alg».proof.Proof.QuantSpec
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.Hand

open Cert.Pre_finite_inputs

/-- An extended real whose absolute value max (a, -a) is below top is a real number. -/
private theorem isFin_of_abs_lt_top (x : EReal) (h : max x (-x) < ⊤) : QuantLin.IsFin x := by
  induction x using EReal.rec with
  | bot => simp at h
  | top => simp at h
  | coe r => exact ⟨EReal.coe_ne_top r, EReal.coe_ne_bot r⟩

/-- The word 0x7F800000 read as an extended real is top. -/
private theorem ofBits_inf : Ideal.ofBits .f32 0x7F800000#32 = (⊤ : EReal) := by
  simp [Ideal.ofBits, Ideal.ieee]

/-- A truth value as a one-bit word is one exactly when it is true. -/
private theorem ofBool_eq_one (b : Bool) : BitVec.ofBool b = 1#1 ↔ b = true := by cases b <;> decide

/-- The mask "|a| < +inf" being one at an index says that entry of a is a real number. -/
private theorem isFin_of_mask {S : Shape} (hb : S_.BroadcastsInDim S (![] : Fin 0 → Fin S.rank)) (a : FVec Ideal S .f32) (i : S.Idx)
    (h : cmpf .olt (Host.absf a) (broadcastInDim S ![] hb (constant (F := Ideal) S_ .f32 0x7F800000#32)) i = 1#1) :
    QuantLin.IsFin (a i) := by
  refine isFin_of_abs_lt_top (a i) ?_
  have h' : Ideal.cmp .olt (max (a i) (-a i)) (Ideal.ofBits .f32 0x7F800000#32) = 1#1 := h
  rw [ofBits_inf] at h'
  simpa only [Ideal.cmp, ofBool_eq_one, decide_eq_true_eq] using h'

private instance : Subsingleton S_.Idx := ⟨fun a b => funext fun d => d.elim0⟩

/-- "all |a| < +inf", a reduction by and over every axis, being one says every entry of a is a real number. -/
private theorem isFin_of_all {S : Shape} {axes : List (Fin S.rank)} (hb : S_.BroadcastsInDim S (![] : Fin 0 → Fin S.rank))
    (hr : S.ReducesTo axes S_) (h0 : 0 < S_.numel) (a : FVec Ideal S .f32)
    (h : Host.reduce IntOp.andi (cmpf .olt (Host.absf a) (broadcastInDim S ![] hb (constant (F := Ideal) S_ .f32 0x7F800000#32)))
      (constantI S_ 1 1#1) hr h0 ix0 = 1#1) (i : S.Idx) : QuantLin.IsFin (a i) :=
  isFin_of_mask hb a i (Host.reduce_andi_all _ _ hr h0 ix0 h i)

/-- The and of two rank-0 one-bit arrays is one only if both are. -/
private theorem andi_ix0 (x y : IVec S_ 1) (h : andi x y ix0 = 1#1) : x ix0 = 1#1 ∧ y ix0 = 1#1 := IntOp.andi_eq_one.1 h

/-- If the printed precondition is all ones then every entry of every argument is a real number. -/
theorem fin_of_pre [Cert.Pre_finite_inputs.Facts]
    (a0 : FVec Ideal S16384x512 .f32) (a1 : FVec Ideal S2048x512 .f32) (a2 : FVec Ideal S2048 .f32) (a3 : FVec Ideal S2048x2048 .f32)
    (a4 : FVec Ideal S2048 .f32) (a5 : FVec Ideal S512x2048 .f32) (a6 : FVec Ideal S512 .f32)
    (h : Cert.Pre_finite_inputs.fn (F := Ideal) a0 a1 a2 a3 a4 a5 a6 = fun _ => 1#1) :
    (∀ i, QuantLin.IsFin (a0 i)) ∧ (∀ i, QuantLin.IsFin (a1 i)) ∧ (∀ i, QuantLin.IsFin (a2 i)) ∧ (∀ i, QuantLin.IsFin (a3 i))
      ∧ (∀ i, QuantLin.IsFin (a4 i)) ∧ (∀ i, QuantLin.IsFin (a5 i)) ∧ (∀ i, QuantLin.IsFin (a6 i)) := by
  have h1 := congrFun h ValueIdx.ix0
  unfold Cert.Pre_finite_inputs.fn Cert.Pre_finite_inputs.fn_part1 at h1
  dsimp only at h1
  obtain ⟨h1, h6⟩ := andi_ix0 _ _ h1
  obtain ⟨h1, h5⟩ := andi_ix0 _ _ h1
  obtain ⟨h1, h4⟩ := andi_ix0 _ _ h1
  obtain ⟨h1, h3⟩ := andi_ix0 _ _ h1
  obtain ⟨h1, h2⟩ := andi_ix0 _ _ h1
  obtain ⟨h0, h1⟩ := andi_ix0 _ _ h1
  exact ⟨isFin_of_all _ _ _ a0 h0, isFin_of_all _ _ _ a1 h1, isFin_of_all _ _ _ a2 h2, isFin_of_all _ _ _ a3 h3,
    isFin_of_all _ _ _ a4 h4, isFin_of_all _ _ _ a5 h5, isFin_of_all _ _ _ a6 h6⟩

end Cert.Pre_finite_inputs.Hand

end
-- ==== Proof.lean ====
/-
  A three-layer MLP whose every layer quantises its input and its weight to eight bits (one scale per tensor,
  s = max (max |t| / 127, 1e-8); an entry becomes clip (round-half-even (t / s), -128, 127) * s), multiplies them and adds
  the bias.  The kernel program runs each layer as one pallas_call that quantises the tiles it multiplies; the reference
  spells the quantised tensor t + (Q(t) - t).

  Over the extended reals the two agree on real-valued inputs.  Both compute the same scales (the same operations on
  the same tensors).  The kernel's layer is y (p, q) = sum over k of Q(x)(p, k) * Q(W)(q, k) + b (q), whatever the
  tiling (a sum is a sum; a change of float format is the identity).  The reference's t + (Q(t) - t) is Q(t) because
  t is a real number by the precondition (or, for the second and third layers, because it is a layer's output: a finite
  sum of products of clipped values times real scales, plus a real bias) and Q(t) is a real number because the clip
  bounds round (t / s) and the scale is real.  So both programs return the same three layers of the arguments.

  The frames of the two kernel programs are the generated frame certificates; the reference's frame and value are its
  generated run.  The kernel program's value is read off the generated frame's boundaries (Proof/KernelRun.lean puts the
  result array into the launch's post; Proof/Region0-2.lean read each pallas_call's output array as one layer of the
  arrays it finds; Proof/KernelChain.lean threads the three through the host operations between them).
-/
import proofs.«110473_j3513283248696_1_alg».proof.Defs
import proofs.«110473_j3513283248696_1_alg».proof.Proof.Gen.Kernel
import proofs.«110473_j3513283248696_1_alg».proof.Proof.Gen.Kernel.Skeleton
import proofs.«110473_j3513283248696_1_alg».proof.Proof.Gen.Kernel.Launch
import proofs.«110473_j3513283248696_1_alg».proof.Proof.Gen.Kernel.Points
import proofs.«110473_j3513283248696_1_alg».proof.Proof.Gen.Kernel.Frame
import proofs.«110473_j3513283248696_1_alg».proof.Proof.Gen.KernelIdeal
import proofs.«110473_j3513283248696_1_alg».proof.Proof.Gen.KernelIdeal.Skeleton
import proofs.«110473_j3513283248696_1_alg».proof.Proof.Gen.KernelIdeal.Launch
import proofs.«110473_j3513283248696_1_alg».proof.Proof.Gen.KernelIdeal.Points
import proofs.«110473_j3513283248696_1_alg».proof.Proof.Gen.KernelIdeal.Frame
import proofs.«110473_j3513283248696_1_alg».proof.Proof.Gen.ReferenceIdeal
import proofs.«110473_j3513283248696_1_alg».proof.Proof.Gen.ReferenceIdeal.Run
import proofs.«110473_j3513283248696_1_alg».proof.Proof.Gen.ReferenceIdeal.Read
import proofs.«110473_j3513283248696_1_alg».proof.Proof.Gen.Pre_finite_inputs
import proofs.«110473_j3513283248696_1_alg».proof.Proof.QuantSpec
import proofs.«110473_j3513283248696_1_alg».proof.Proof.KernelRun
import proofs.«110473_j3513283248696_1_alg».proof.Proof.KernelChain
import proofs.«110473_j3513283248696_1_alg».proof.Proof.RefValue
import proofs.«110473_j3513283248696_1_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel program runs and leaves its arguments alone: the generated frame certificate. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference runs and leaves its arguments alone: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on real-valued arguments both programs end with the three layers of the arguments in their
    result arrays: the kernel program by its regions' values threaded through the host operations, the reference by its
    run's term, where t + (Q(t) - t) is Q(t) on real numbers. -/
theorem algebraic : Cert.algebraic_KernelIdeal_ReferenceIdeal := by
  intro m ρ m' ρ' hpre hagree
  refine ⟨fun c => QuantLin.G3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.out_eq m ρ c), (h c).2⟩)
      (Cert.KernelIdeal.GenRun.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    obtain ⟨f0, f1, f2, f3, f4, f5, f6⟩ := Cert.Pre_finite_inputs.Hand.fin_of_pre _ _ _ _ _ _ _ (hpre c)
    have key := Cert.ReferenceIdeal.RefValue.ref_eq m' c
      (by rw [e0]; exact f0) (by rw [e1]; exact f1) (by rw [e2]; exact f2) (by rw [e3]; exact f3)
      (by rw [e4]; exact f4) (by rw [e5]; exact f5) (by rw [e6]; exact f6)
    rw [e0, e1, e2, e3, e4, e5, e6] at key
    exact key

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
